-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S1000x256 : Shape := ⟨2, ![1000, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : FVec F S262144x256 .f32) (main_arg1 : IVec S262144 32) (main_arg2 : FVec F S1000x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1000x256 .f32 := Host.absf main_arg2
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  main_v8
-- ==== Kernel.lean ====
abbrev S262144x256 : Shape := ⟨2, ![262144, 256]⟩
abbrev S262144 : Shape := ⟨1, ![262144]⟩
abbrev S1000x256 : Shape := ⟨2, ![1000, 256]⟩
abbrev S2x1000x256 : Shape := ⟨3, ![2, 1000, 256]⟩
abbrev S2x1000x8 : Shape := ⟨3, ![2, 1000, 8]⟩
abbrev S2048x256 : Shape := ⟨2, ![2048, 256]⟩
abbrev S2048 : Shape := ⟨1, ![2048]⟩
abbrev S1x1000x256 : Shape := ⟨3, ![1, 1000, 256]⟩
abbrev S1x1000x8 : Shape := ⟨3, ![1, 1000, 8]⟩
abbrev S1000x8 : Shape := ⟨2, ![1000, 8]⟩
abbrev S1024x256 : Shape := ⟨2, ![1024, 256]⟩
abbrev S1024 : Shape := ⟨1, ![1024]⟩
abbrev S1x1024 : Shape := ⟨2, ![1, 1024]⟩
abbrev S1000x1024 : Shape := ⟨2, ![1000, 1024]⟩
abbrev S1024x8 : Shape := ⟨2, ![1024, 8]⟩
abbrev S_ : Shape := ⟨0, ![]⟩
abbrev S1000x1 : Shape := ⟨2, ![1000, 1]⟩

abbrev nBuf : Space → Nat
  | .hbm => 28
  | .vmem => 8
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x256, .f32⟩
  | .hbm, ⟨3, _⟩ => ⟨S2x1000x256, .f32⟩
  | .hbm, ⟨4, _⟩ => ⟨S2x1000x8, .f32⟩
  | .hbm, ⟨5, _⟩ => ⟨S_, .f32⟩
  | .hbm, ⟨6, _⟩ => ⟨S1000x256, .f32⟩
  | .hbm, ⟨7, _⟩ => ⟨S_, .f32⟩
  | .hbm, ⟨8, _⟩ => ⟨S1000x8, .f32⟩
  | .hbm, ⟨9, _⟩ => ⟨S1000x1, .f32⟩
  | .hbm, ⟨10, _⟩ => ⟨S_, .f32⟩
  | .hbm, ⟨11, _⟩ => ⟨S1000x1, .f32⟩
  | .hbm, ⟨12, _⟩ => ⟨S1000x1, .i1⟩
  | .hbm, ⟨13, _⟩ => ⟨S_, .f32⟩
  | .hbm, ⟨14, _⟩ => ⟨S_, .f32⟩
  | .hbm, ⟨15, _⟩ => ⟨S1000x1, .f32⟩
  | .hbm, ⟨16, _⟩ => ⟨S1000x1, .f32⟩
  | .hbm, ⟨17, _⟩ => ⟨S1000x256, .f32⟩
  | .hbm, ⟨18, _⟩ => ⟨S1000x256, .f32⟩
  | .hbm, ⟨19, _⟩ => ⟨S_, .f32⟩
  | .hbm, ⟨20, _⟩ => ⟨S1000x256, .f32⟩
  | .hbm, ⟨21, _⟩ => ⟨S1000x256, .f32⟩
  | .hbm, ⟨22, _⟩ => ⟨S_, .f32⟩
  | .hbm, ⟨23, _⟩ => ⟨S1000x256, .f32⟩
  | .hbm, ⟨24, _⟩ => ⟨S1000x256, .f32⟩
  | .hbm, ⟨25, _⟩ => ⟨S1000x256, .f32⟩
  | .hbm, ⟨26, _⟩ => ⟨S1000x256, .i1⟩
  | .hbm, ⟨27, _⟩ => ⟨S1000x256, .f32⟩
  | .local _ .vmem, ⟨0, _⟩ => ⟨S2048x256, .f32⟩
  | .local _ .vmem, ⟨1, _⟩ => ⟨S2048x256, .f32⟩
  | .local _ .vmem, ⟨2, _⟩ => ⟨S2048, .i32⟩
  | .local _ .vmem, ⟨3, _⟩ => ⟨S2048, .i32⟩
  | .local _ .vmem, ⟨4, _⟩ => ⟨S1x1000x256, .f32⟩
  | .local _ .vmem, ⟨5, _⟩ => ⟨S1x1000x256, .f32⟩
  | .local _ .vmem, ⟨6, _⟩ => ⟨S1x1000x8, .f32⟩
  | .local _ .vmem, ⟨7, _⟩ => ⟨S1x1000x8, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_v0 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1000x256_S1x1000x256_0_0_0 : ∀ a, (![0, 0, 0] : Fin 3 → Nat) a + S1x1000x256.size a ≤ S1x1000x256.size a
  h_S1x1000x256 : 0 < S1x1000x256.numel
  shapeCasts_S1x1000x256_S1000x256 : S1x1000x256.ShapeCasts S1000x256
  shapeCasts_S1000x256_S1x1000x256 : S1000x256.ShapeCasts S1x1000x256
  inb_S1x1000x8_S1x1000x8_0_0_0 : ∀ a, (![0, 0, 0] : Fin 3 → Nat) a + S1x1000x8.size a ≤ S1x1000x8.size a
  h_S1x1000x8 : 0 < S1x1000x8.numel
  shapeCasts_S1x1000x8_S1000x8 : S1x1000x8.ShapeCasts S1000x8
  shapeCasts_S1000x8_S1x1000x8 : S1000x8.ShapeCasts S1x1000x8
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S2048_S2048_0 : ∀ a, (![0] : Fin 1 → Nat) a + S2048.size a ≤ S2048.size a
  h_S2048 : 0 < S2048.numel
  slices_S2048x256_o0_0_S1024x256 : S2048x256.Slices ![0, 0] S1024x256
  slices_S2048_o0_S1024 : S2048.Slices ![0] S1024
  shapeCasts_S1024_S1x1024 : S1024.ShapeCasts S1x1024
  iota_S1000x1024_d0_w32 : S1000x1024.Iotas .tc 32 [0]
  broadcasts_S1x1024_S1000x1024 : S1x1024.Broadcasts S1000x1024
  natLt_1_32 : 1 < 32
  slices_S2048x256_o1024_0_S1024x256 : S2048x256.Slices ![1024, 0] S1024x256
  slices_S2048_o1024_S1024 : S2048.Slices ![1024] S1024
  reducesTo_S2x1000x256_S1000x256_d0 : S2x1000x256.ReducesTo [0] S1000x256
  h_S_ : 0 < S_.numel
  reducesTo_S2x1000x8_S1000x8_d0 : S2x1000x8.ReducesTo [0] S1000x8
  slices_S1000x8_S1000x1_0_0 : S1000x8.Slices ![0, 0] S1000x1
  bcast_S_S1000x1 : S_.BroadcastsInDim S1000x1 (![] : Fin 0 → Fin S1000x1.rank)
  bcast_S1000x1_S1000x256_0_1 : S1000x1.BroadcastsInDim S1000x256 (![0, 1] : Fin 2 → Fin S1000x256.rank)
  bcast_S_S1000x256 : S_.BroadcastsInDim S1000x256 (![] : Fin 0 → Fin S1000x256.rank)
  dot_S1000x1024_S1024x256_S1000x256_1_0_0_1_n_n_wf : DotDims.WF S1000x1024 S1024x256 S1000x256 [1] [0] [0] [1] [] []
  dot_S1000x1024_S1024x8_S1000x8_1_0_0_1_n_n_wf : DotDims.WF S1000x1024 S1024x8 S1000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S262144.size a
  hwx0_1 : ∀ i : grid0.Coords, EltTy.bits .i32 = 32 ∨ (Rect.block (s := S262144) S2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x256.size a ≤ S2x1000x256.size a
  hwx0_2 : ∀ i : grid0.Coords, EltTy.bits .f32 = 32 ∨ (Rect.block (s := S2x1000x256) S1x1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1000x8.size a ≤ S2x1000x8.size a
  hwx0_3 : ∀ i : grid0.Coords, EltTy.bits .f32 = 32 ∨ (Rect.block (s := S2x1000x8) S1x1000x8.size (cc0_transform_3 i) (hinb0_3 i)).WholeWords (EltTy.packing .f32)

variable [Facts₀]

def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf
def dot_S1000x1024_S1024x8_S1000x8_1_0_0_1_n_n : DotDims S1000x1024 S1024x8 S1000x8 where
  lhsContracting := [1]
  rhsContracting := [0]
  lhsNonContracting := [0]
  rhsNonContracting := [1]
  lhsBatch := []
  rhsBatch := []
  wf := dot_S1000x1024_S1024x8_S1000x8_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1000x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S1000x256 : Shape := ⟨2, ![1000, 256]⟩
abbrev S_ : Shape := ⟨0, ![]⟩
abbrev S262144x1 : Shape := ⟨2, ![262144, 1]⟩
abbrev S1000 : Shape := ⟨1, ![1000]⟩
abbrev S1000x1 : Shape := ⟨2, ![1000, 1]⟩

abbrev nBuf : Space → Nat
  | .hbm => 33
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S1000x256, .f32⟩
  | .hbm, ⟨3, _⟩ => ⟨S_, .f32⟩
  | .hbm, ⟨4, _⟩ => ⟨S1000x256, .f32⟩
  | .hbm, ⟨5, _⟩ => ⟨S262144x1, .i32⟩
  | .hbm, ⟨6, _⟩ => ⟨S1000x256, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S1000, .f32⟩
  | .hbm, ⟨11, _⟩ => ⟨S262144x1, .i32⟩
  | .hbm, ⟨12, _⟩ => ⟨S1000, .f32⟩
  | .hbm, ⟨13, _⟩ => ⟨S_, .f32⟩
  | .hbm, ⟨14, _⟩ => ⟨S1000, .f32⟩
  | .hbm, ⟨15, _⟩ => ⟨S1000, .i1⟩
  | .hbm, ⟨16, _⟩ => ⟨S_, .f32⟩
  | .hbm, ⟨17, _⟩ => ⟨S_, .f32⟩
  | .hbm, ⟨18, _⟩ => ⟨S1000, .f32⟩
  | .hbm, ⟨19, _⟩ => ⟨S1000, .f32⟩
  | .hbm, ⟨20, _⟩ => ⟨S1000x1, .f32⟩
  | .hbm, ⟨21, _⟩ => ⟨S1000x256, .f32⟩
  | .hbm, ⟨22, _⟩ => ⟨S1000x256, .f32⟩
  | .hbm, ⟨23, _⟩ => ⟨S_, .f32⟩
  | .hbm, ⟨24, _⟩ => ⟨S1000x256, .f32⟩
  | .hbm, ⟨25, _⟩ => ⟨S1000x256, .f32⟩
  | .hbm, ⟨26, _⟩ => ⟨S_, .f32⟩
  | .hbm, ⟨27, _⟩ => ⟨S1000x256, .f32⟩
  | .hbm, ⟨28, _⟩ => ⟨S1000x256, .f32⟩
  | .hbm, ⟨29, _⟩ => ⟨S1000x256, .f32⟩
  | .hbm, ⟨30, _⟩ => ⟨S1000x1, .i1⟩
  | .hbm, ⟨31, _⟩ => ⟨S1000x256, .i1⟩
  | .hbm, ⟨32, _⟩ => ⟨S1000x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_v0 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S1000x256 : S_.BroadcastsInDim S1000x256 (![] : Fin 0 → Fin S1000x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  scatter_S1000x256_S262144x1_S262144x256_1_0_0_1_wf : ScatterDims.WF S1000x256 S262144x1 S262144x256 [1] [0] [0] 1
  scatter_S1000_S262144x1_S262144_n_0_0_1_wf : ScatterDims.WF S1000 S262144x1 S262144 [] [0] [0] 1

variable [Facts₀]

def scatter_S1000x256_S262144x1_S262144x256_1_0_0_1 : ScatterDims S1000x256 S262144x1 S262144x256 where
  updateWindowDims := [1]
  insertedWindowDims := [0]
  scatterDimsToOperandDims := [0]
  indexVectorDim := 1
  wf := scatter_S1000x256_S262144x1_S262144x256_1_0_0_1_wf
def scatter_S1000_S262144x1_S262144_n_0_0_1 : ScatterDims S1000 S262144x1 S262144 where
  updateWindowDims := []
  insertedWindowDims := [0]
  scatterDimsToOperandDims := [0]
  indexVectorDim := 1
  wf := scatter_S1000_S262144x1_S262144_n_0_0_1_wf

class Facts : Prop extends Facts₀ where

variable [Facts]
-- ==== Proof.LibScatterAdd.lean ====
/-
  The host's accumulating float scatter (`Host.scatterAdd`, at the ideal instance `Ideal.hostScatterAdd`) read at
  an index, at generic extents, for the two layouts a segment sum prints:
  `scatterAdd_rows` — an [N, D] matrix of updates scattered by rows onto a [C, D] operand, row `r` going to the row
  that entry `(r, 0)` of an [N, 1] column of 32-bit indices names (update window axis 1, inserted window axis 0,
  scatter axis 0, index vector axis 1): entry `(c, e)` of the result is the operand's plus the sum over the rows `r`
  whose index, read signed, is `c` of the update entry `(r, e)`;
  `scatterAdd_vec` — an [N] vector of updates scattered onto a [C] operand the same way.
  An index that, read signed, falls outside the operand's rows drops its update.
-/
import Idealize.ShloMosaic.PureOps.Ideal
import Idealize.ShloMosaic.Lib.ValueIdx
import Idealize.ShloMosaic.Lib.ValueIdxRank1

noncomputable section

namespace Cert.ScatterAdd

open Idealize.ShloMosaic Idealize.ShloMosaic.ValueIdx

/-! ## Rows of a matrix -/

section Rows
variable {C D N : ℕ}
  (wf : ScatterDims.WF (⟨2, ![C, D]⟩ : Shape) (⟨2, ![N, 1]⟩ : Shape) (⟨2, ![N, D]⟩ : Shape) [1] [0] [0] 1)

/-- The row scatter's dimension numbers: the updates' axis 1 is the window, the operand's axis 0 is inserted and is
    the one the index names. -/
abbrev rowsDims : ScatterDims (⟨2, ![C, D]⟩ : Shape) (⟨2, ![N, 1]⟩ : Shape) (⟨2, ![N, D]⟩ : Shape) :=
  ⟨[1], [0], [0], 1, wf⟩

/-- On the row axis the window starts at the row the index column names, read signed. -/
theorem rows_start0 (j : (⟨2, ![N, D]⟩ : Shape).Idx) (idx : IVec (⟨2, ![N, 1]⟩ : Shape) 32) :
    (rowsDims wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On the column axis the window starts at 0. -/
theorem rows_start1 (j : (⟨2, ![N, D]⟩ : Shape).Idx) (idx : IVec (⟨2, ![N, 1]⟩ : Shape) 32) :
    (rowsDims wf).start j idx 1 = 0 := by
  unfold ScatterDims.start
  exact dif_neg (show (1 : Fin 2) ∉ ([0] : List (Fin 2)) by decide)

/-- The row axis is inserted: no window coordinate. -/
theorem rows_window0 (j : (⟨2, ![N, D]⟩ : Shape).Idx) : (rowsDims wf).window j 0 = 0 := by
  unfold ScatterDims.window
  exact dif_neg (show (0 : Fin 2) ∉ (List.finRange 2).filter (· ∉ ([0] : List (Fin 2))) by decide)

/-- The column axis carries the update's column. -/
theorem rows_window1 (j : (⟨2, ![N, D]⟩ : Shape).Idx) : (rowsDims wf).window j 1 = (j 1).val := by
  unfold ScatterDims.window
  exact (dif_pos (show (1 : Fin 2) ∈ (List.finRange 2).filter (· ∉ ([0] : List (Fin 2))) by decide)).trans rfl

/-- An update lands on entry `(c, e)` exactly when its row's index, read signed, is `c` and its column is `e`:
    the range conditions then hold because `c` is a row and `e` a column of the operand. -/
theorem rows_resultIdx_iff (j : (⟨2, ![N, D]⟩ : Shape).Idx) (idx : IVec (⟨2, ![N, 1]⟩ : Shape) 32)
    (c : Fin C) (e : Fin D) :
    (rowsDims wf).resultIdx? j idx = some (ix2 c e)
      ↔ (idx (ix2 (j 0) (0 : Fin 1))).toInt = (c.val : ℤ) ∧ (j 1).val = e.val := by
  have hs0 := rows_start0 wf j idx
  have hs1 := rows_start1 wf j idx
  have hw0 := rows_window0 wf j
  have hw1 := rows_window1 wf j
  have hj1 : (j 1).val < D := idx2_lt1 j
  have hc : c.val < C := c.isLt
  have he : e.val < D := e.isLt
  unfold ScatterDims.resultIdx?
  split
  · rename_i h
    rw [Option.some.injEq]
    constructor
    · intro hf
      have h0 : ((rowsDims wf).start j idx 0 + ((rowsDims wf).window j 0 : ℕ)).toNat = c.val :=
        congrArg Fin.val (congrFun hf 0)
      have h1 : ((rowsDims wf).start j idx 1 + ((rowsDims wf).window j 1 : ℕ)).toNat = e.val :=
        congrArg Fin.val (congrFun hf 1)
      have hh0 : 0 ≤ (rowsDims wf).start j idx 0 + ((rowsDims wf).window j 0 : ℕ) := (h 0).1
      rw [hs0, hw0] at h0 hh0
      rw [hs1, hw1] at h1
      omega
    · intro ⟨h0, h1⟩
      funext a
      refine Fin.ext ?_
      match a with
      | ⟨0, _⟩ =>
        show ((rowsDims wf).start j idx 0 + ((rowsDims wf).window j 0 : ℕ)).toNat = c.val
        rw [hs0, hw0]
        omega
      | ⟨1, _⟩ =>
        show ((rowsDims wf).start j idx 1 + ((rowsDims wf).window j 1 : ℕ)).toNat = e.val
        rw [hs1, hw1]
        omega
  · rename_i h
    constructor
    · intro hf
      exact absurd hf (by simp)
    · intro ⟨h0, h1⟩
      exfalso
      apply h
      intro a
      match a with
      | ⟨0, _⟩ =>
        show 0 ≤ (rowsDims wf).start j idx 0 + ((rowsDims wf).window j 0 : ℕ)
          ∧ (rowsDims wf).start j idx 0 + ((rowsDims wf).window j 0 : ℕ) < (C : ℤ)
        rw [hs0, hw0]
        omega
      | ⟨1, _⟩ =>
        show 0 ≤ (rowsDims wf).start j idx 1 + ((rowsDims wf).window j 1 : ℕ)
          ∧ (rowsDims wf).start j idx 1 + ((rowsDims wf).window j 1 : ℕ) < (D : ℤ)
        rw [hs1, hw1]
        omega

end Rows

/-- Rows: update row `r` (all its columns) lands on operand row `idx r`; so entry `(c, e)` of the result is the
    operand's plus the sum of the entries `(r, e)` of the rows whose index is `c`. -/
theorem scatterAdd_rows {C D N : ℕ}
    (d : ScatterDims (⟨2, ![C, D]⟩ : Shape) (⟨2, ![N, 1]⟩ : Shape) (⟨2, ![N, D]⟩ : Shape))
    (huw : d.updateWindowDims = [1]) (hiw : d.insertedWindowDims = [0]) (hsd : d.scatterDimsToOperandDims = [0])
    (hiv : d.indexVectorDim = 1)
    (x : (⟨2, ![C, D]⟩ : Shape).Idx → EReal) (idx : IVec (⟨2, ![N, 1]⟩ : Shape) 32)
    (upd : (⟨2, ![N, D]⟩ : Shape).Idx → EReal) (c : Fin C) (e : Fin D) :
    Ideal.hostScatterAdd d x idx upd (ix2 c e)
      = x (ix2 c e) + ∑ r : Fin N, if (idx (ix2 r (0 : Fin 1))).toInt = (c.val : ℤ) then upd (ix2 r e) else 0 := by
  obtain ⟨uw, iw, sd, iv, wf⟩ := d
  dsimp only at huw hiw hsd hiv
  subst huw hiw hsd hiv
  unfold Ideal.hostScatterAdd
  congr 1
  rw [Finset.sum_filter, sum_idx2]
  refine Finset.sum_congr rfl fun r _ => ?_
  refine ((Finset.sum_congr rfl fun e' _ => ?_).trans (Finset.sum_ite_eq' Finset.univ e
    (fun e' => if (idx (ix2 r (0 : Fin 1))).toInt = (c.val : ℤ) then upd (ix2 r e') else 0))).trans
    (if_pos (Finset.mem_univ e))
  have hiff : (rowsDims wf).resultIdx? (ix2 r e') idx = some (ix2 c e)
      ↔ (idx (ix2 r (0 : Fin 1))).toInt = (c.val : ℤ) ∧ e'.val = e.val :=
    rows_resultIdx_iff wf (ix2 r e') idx c e
  by_cases he : e' = e
  · subst he
    rw [if_pos rfl]
    exact if_congr (hiff.trans ⟨fun h => h.1, fun h => ⟨h, rfl⟩⟩) rfl rfl
  · rw [if_neg he]
    exact if_neg fun hh => he (Fin.ext (hiff.1 hh).2)

/-! ## Entries of a vector -/

section Vec
variable {C N : ℕ}
  (wf : ScatterDims.WF (⟨1, ![C]⟩ : Shape) (⟨2, ![N, 1]⟩ : Shape) (⟨1, ![N]⟩ : Shape) [] [0] [0] 1)

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The entry scatter's dimension numbers: the updates have no window axis, the operand's one axis is inserted and
    is the one the index names. -/
abbrev vecDims : ScatterDims (⟨1, ![C]⟩ : Shape) (⟨2, ![N, 1]⟩ : Shape) (⟨1, ![N]⟩ : Shape) :=
  ⟨[], [0], [0], 1, wf⟩

/-- The window starts at the entry the index column names, read signed. -/
theorem vec_start0 (j : (⟨1, ![N]⟩ : Shape).Idx) (idx : IVec (⟨2, ![N, 1]⟩ : Shape) 32) :
    (vecDims wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's axis is inserted: no window coordinate. -/
theorem vec_window0 (j : (⟨1, ![N]⟩ : Shape).Idx) : (vecDims wf).window j 0 = 0 := by
  unfold ScatterDims.window
  exact dif_neg (show (0 : Fin 1) ∉ (List.finRange 1).filter (· ∉ ([0] : List (Fin 1))) by decide)

/-- An update lands on entry `c` exactly when its index, read signed, is `c`: the range condition then holds
    because `c` is an entry of the operand. -/
theorem vec_resultIdx_iff (j : (⟨1, ![N]⟩ : Shape).Idx) (idx : IVec (⟨2, ![N, 1]⟩ : Shape) 32) (c : Fin C) :
    (vecDims wf).resultIdx? j idx = some (ix1 c) ↔ (idx (ix2 (j 0) (0 : Fin 1))).toInt = (c.val : ℤ) := by
  have hs0 := vec_start0 wf j idx
  have hw0 := vec_window0 wf j
  have hc : c.val < C := c.isLt
  unfold ScatterDims.resultIdx?
  split
  · rename_i h
    rw [Option.some.injEq]
    constructor
    · intro hf
      have h0 : ((vecDims wf).start j idx 0 + ((vecDims wf).window j 0 : ℕ)).toNat = c.val :=
        congrArg Fin.val (congrFun hf 0)
      have hh0 : 0 ≤ (vecDims wf).start j idx 0 + ((vecDims wf).window j 0 : ℕ) := (h 0).1
      rw [hs0, hw0] at h0 hh0
      omega
    · intro h0
      funext a
      refine Fin.ext ?_
      match a with
      | ⟨0, _⟩ =>
        show ((vecDims wf).start j idx 0 + ((vecDims wf).window j 0 : ℕ)).toNat = c.val
        rw [hs0, hw0]
        omega
  · rename_i h
    constructor
    · intro hf
      exact absurd hf (by simp)
    · intro h0
      exfalso
      apply h
      intro a
      match a with
      | ⟨0, _⟩ =>
        show 0 ≤ (vecDims wf).start j idx 0 + ((vecDims wf).window j 0 : ℕ)
          ∧ (vecDims wf).start j idx 0 + ((vecDims wf).window j 0 : ℕ) < (C : ℤ)
        rw [hs0, hw0]
        omega

end Vec

/-- Entries of a vector: update entry `r` lands on operand entry `idx r`. -/
theorem scatterAdd_vec {C N : ℕ}
    (d : ScatterDims (⟨1, ![C]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    (x : (⟨1, ![C]⟩ : Shape).Idx → EReal) (idx : IVec (⟨2, ![N, 1]⟩ : Shape) 32)
    (upd : (⟨1, ![N]⟩ : Shape).Idx → EReal) (c : Fin C) :
    Ideal.hostScatterAdd d x idx upd (ix1 c)
      = x (ix1 c) + ∑ r : Fin N, if (idx (ix2 r (0 : Fin 1))).toInt = (c.val : ℤ) then upd (ix1 r) else 0 := by
  obtain ⟨uw, iw, sd, iv, wf⟩ := d
  dsimp only at huw hiw hsd hiv
  subst huw hiw hsd hiv
  unfold Ideal.hostScatterAdd
  congr 1
  rw [Finset.sum_filter, sum_idx1]
  refine Finset.sum_congr rfl fun r _ => ?_
  exact if_congr (vec_resultIdx_iff wf (ix1 r) idx c) rfl rfl

end Cert.ScatterAdd

end
-- ==== Proof.Spec.lean ====
/-
  The class means of a segment reduction, stated over plain index types.

  Row `r` of the 262144 feature rows belongs to class `c` when its label, a 32-bit word, is the word of `c`
  (a label outside `0 … 999` belongs to no class). `segSum` is the sum of a class's rows, `segCnt` the number
  of them (as a sum of ones), and `ema` the update of one centre entry from them: where the class has rows,
  half the centre plus half the class mean; elsewhere the centre itself.
-/
import Idealize.ShloMosaic.PureOps.Ideal
import Idealize.ShloMosaic.Lib.ValueIdx

noncomputable section

namespace Cert.SegMean

open Idealize.ShloMosaic Idealize.ShloMosaic.ValueIdx

/-- One where the label word `w` is class `c`'s word, zero elsewhere. -/
def hot (c : Fin 1000) (w : BitVec 32) : EReal := if BitVec.ofNat 32 c.val = w then 1 else 0

/-- The sum of the feature rows of class `c`, at column `d`. -/
def segSum (feat : (⟨2, ![262144, 256]⟩ : Shape).Idx → EReal) (lbl : (⟨1, ![262144]⟩ : Shape).Idx → BitVec 32)
    (c : Fin 1000) (d : Fin 256) : EReal :=
  ∑ r : Fin 262144, hot c (lbl (ix1 r)) * feat (ix2 r d)

/-- The number of rows of class `c`. -/
def segCnt (lbl : (⟨1, ![262144]⟩ : Shape).Idx → BitVec 32) (c : Fin 1000) : EReal :=
  ∑ r : Fin 262144, hot c (lbl (ix1 r))

/-- One entry of the updated centres from the class sum `s`, the class count `k` and the old entry `x`: where
    `k > 0`, `½·x + ½·(s / k)`; elsewhere `x` (the quotient then being taken by one). -/
def ema (s k x : EReal) : EReal :=
  Scalar.select (FloatOps.cmpf (F := Ideal) (φ := .f32) .ogt k (Ideal.ofBits .f32 0x00000000#32))
    (FloatOps.addf (F := Ideal) (φ := .f32) (FloatOps.mulf (F := Ideal) (φ := .f32) (Ideal.ofBits .f32 0x3F000000#32) x)
      (FloatOps.mulf (F := Ideal) (φ := .f32) (Ideal.ofBits .f32 0x3F000000#32)
        (FloatOps.hostDivf (F := Ideal) (φ := .f32) s
          (Scalar.select (FloatOps.cmpf (F := Ideal) (φ := .f32) .ogt k (Ideal.ofBits .f32 0x00000000#32)) k
            (Ideal.ofBits .f32 0x3F800000#32)))))
    x

/-- The updated centres as one array: `ema` of the class sums and counts, entry by entry. -/
def newCenters (feat : (⟨2, ![262144, 256]⟩ : Shape).Idx → EReal) (lbl : (⟨1, ![262144]⟩ : Shape).Idx → BitVec 32)
    (cen : (⟨2, ![1000, 256]⟩ : Shape).Idx → EReal) : (⟨2, ![1000, 256]⟩ : Shape).Idx → EReal :=
  fun j => ema (segSum feat lbl (j 0) (j 1)) (segCnt lbl (j 0)) (cen j)

theorem newCenters_apply (feat : (⟨2, ![262144, 256]⟩ : Shape).Idx → EReal) (lbl : (⟨1, ![262144]⟩ : Shape).Idx → BitVec 32)
    (cen : (⟨2, ![1000, 256]⟩ : Shape).Idx → EReal) (c : Fin 1000) (d : Fin 256) :
    newCenters feat lbl cen (ix2 c d) = ema (segSum feat lbl c d) (segCnt lbl c) (cen (ix2 c d)) := rfl

end Cert.SegMean

end
-- ==== Proof.Hot.lean ====
/-
  The one-hot entry of a class against a label word: how the kernel's compare-and-convert and the reference's
  signed reading of the label say the same thing.
-/
import proofs.«404302_j36979668419191_3_alg».proof.Proof.Spec
import Idealize.ShloMosaic.PureOps.Ideal

noncomputable section

namespace Cert.SegMean

open Idealize.ShloMosaic

/-- A label word read as a signed integer is the class number `c < 1000` exactly when it is `c`'s word. -/
theorem toInt_eq_iff (c : Fin 1000) (w : BitVec 32) : w.toInt = (c.val : ℤ) ↔ BitVec.ofNat 32 c.val = w := by
  have hc : c.val < 1000 := c.isLt
  have hw : w.toNat < 2 ^ 32 := w.isLt
  constructor
  · intro h
    apply BitVec.eq_of_toNat_eq
    rw [BitVec.toNat_ofNat, Nat.mod_eq_of_lt (by omega)]
    rw [BitVec.toInt_eq_toNat_cond] at h
    split at h <;> omega
  · intro h
    subst h
    rw [BitVec.toInt_eq_toNat_cond, BitVec.toNat_ofNat, Nat.mod_eq_of_lt (by omega)]
    split <;> omega

/-- The one-hot entry by the signed reading. -/
theorem hot_eq (c : Fin 1000) (w : BitVec 32) : hot c w = if w.toInt = (c.val : ℤ) then (1 : EReal) else 0 := by
  unfold hot
  by_cases h : BitVec.ofNat 32 c.val = w
  · rw [if_pos h, if_pos ((toInt_eq_iff c w).mpr h)]
  · rw [if_neg h, if_neg (fun h' => h ((toInt_eq_iff c w).mp h'))]

/-- A one-hot entry times a value keeps the value on the class's rows and is zero elsewhere (also at an infinite value). -/
theorem hot_mul (c : Fin 1000) (w : BitVec 32) (x : EReal) : hot c w * x = if w.toInt = (c.val : ℤ) then x else 0 := by
  rw [hot_eq]
  by_cases h : w.toInt = (c.val : ℤ)
  · rw [if_pos h, if_pos h, one_mul]
  · rw [if_neg h, if_neg h, zero_mul]

/-- The kernel's entry: the class number's word compared for equality with the label, widened to 32 bits and
    converted to a float, is the one-hot entry. -/
theorem onehot_elem (c : Fin 1000) (w : BitVec 32) :
    (FloatOps.sitofp (F := Ideal) .f32 ((IntOp.cmpi .eq (BitVec.ofNat 32 c.val) w).setWidth 32) : EReal) = hot c w := by
  -- the widened compare bit, read signed, is 1 on equality and 0 otherwise
  have key : ((IntOp.cmpi .eq (BitVec.ofNat 32 c.val) w).setWidth 32).toInt
      = if BitVec.ofNat 32 c.val = w then (1 : ℤ) else 0 := by
    unfold IntOp.cmpi
    by_cases h : BitVec.ofNat 32 c.val = w
    · have hb : (BitVec.ofNat 32 c.val == w) = true := by simpa using h
      simp only [hb, if_pos h]
      decide
    · have hb : (BitVec.ofNat 32 c.val == w) = false := by simpa using h
      simp only [hb, if_neg h]
      decide
  show ((((IntOp.cmpi .eq (BitVec.ofNat 32 c.val) w).setWidth 32).toInt : ℝ) : EReal) = hot c w
  rw [key]
  unfold hot
  by_cases h : BitVec.ofNat 32 c.val = w
  · rw [if_pos h, if_pos h]; simp
  · rw [if_neg h, if_neg h]; simp

end Cert.SegMean

end
-- ==== Proof.RefValue.lean ====
/-
  The reference's result, entry by entry: its two accumulating scatters are the class sums and the class counts,
  and the operations after them are `ema` at every entry.
-/
import proofs.«404302_j36979668419191_3_alg».proof.Proof.RefRead
import proofs.«404302_j36979668419191_3_alg».proof.Proof.LibScatterAdd
import proofs.«404302_j36979668419191_3_alg».proof.Proof.Hot
import proofs.«404302_j36979668419191_3_alg».proof.Proof.Spec
import Idealize.ShloMosaic.Lib.ValueIdx
import Idealize.ShloMosaic.PureOps.Ideal.Laws
import Idealize.ShloMosaic.PureOps.IdealRules

noncomputable section

namespace Cert.ReferenceIdeal.SegValue

open Idealize.ShloMosaic Idealize.ShloMosaic.ValueIdx Cert.ReferenceIdeal Cert.ReferenceIdeal.Gen Cert.ReferenceIdeal.ReadP Cert.SegMean Cert.ScatterAdd

/-- The index column of the first scatter is the label vector. -/
theorem v1_col (x1 : (⟨S262144, .i32⟩ : BufTy).Contents (Elt Ideal)) (r : Fin 262144) :
    val_main_v1 (F := Ideal) x1 (ix2 r (0 : Fin 1)) = x1 (ix1 r) := by
  rw [val_main_v1_apply]
  refine congrArg x1 ?_
  funext a
  match a with
  | ⟨0, _⟩ => rfl

/-- The index column of the second scatter is the label vector. -/
theorem v5_col (x1 : (⟨S262144, .i32⟩ : BufTy).Contents (Elt Ideal)) (r : Fin 262144) :
    val_main_v5 (F := Ideal) x1 (ix2 r (0 : Fin 1)) = x1 (ix1 r) := by
  rw [val_main_v5_apply]
  refine congrArg x1 ?_
  funext a
  match a with
  | ⟨0, _⟩ => rfl

/-- The bit pattern of one denotes one. -/
theorem ofBits_one_f32 : Ideal.ofBits .f32 0x3F800000#32 = 1 := IdealRules.sign_bit.ideal_onePat .f32

/-- The first scatter's result is the class sums. -/
theorem v2_apply (x0 : (⟨S262144x256, .f32⟩ : BufTy).Contents (Elt Ideal)) (x1 : (⟨S262144, .i32⟩ : BufTy).Contents (Elt Ideal))
    (c : Fin 1000) (d : Fin 256) :
    val_main_v2 (F := Ideal) x0 x1 (ix2 c d) = segSum x0 x1 c d := by
  unfold val_main_v2 Host.scatterAdd
  show Ideal.hostScatterAdd _ _ _ _ (ix2 c d) = _
  rw [scatterAdd_rows _ rfl rfl rfl rfl, val_main_v0_apply, val_main_cst_apply]
  show Ideal.ofBits .f32 0x00000000#32 + _ = _
  rw [Ideal.ofBits_zero_f32, zero_add]
  unfold segSum
  refine Finset.sum_congr rfl fun r _ => ?_
  rw [v1_col, hot_mul]

/-- The second scatter's result is the class counts. -/
theorem v6_apply (x1 : (⟨S262144, .i32⟩ : BufTy).Contents (Elt Ideal)) (c : Fin 1000) :
    val_main_v6 (F := Ideal) x1 (ix1 c) = segCnt x1 c := by
  unfold val_main_v6 Host.scatterAdd
  show Ideal.hostScatterAdd _ _ _ _ (ix1 c) = _
  rw [scatterAdd_vec _ rfl rfl rfl rfl, val_main_v4_apply, val_main_cst_1_apply]
  show Ideal.ofBits .f32 0x00000000#32 + _ = _
  rw [Ideal.ofBits_zero_f32, zero_add]
  unfold segCnt
  refine Finset.sum_congr rfl fun r _ => ?_
  rw [v5_col, val_main_v3_apply, val_main_cst_0_apply, hot_eq]
  show (if _ then Ideal.ofBits .f32 0x3F800000#32 else 0) = _
  rw [ofBits_one_f32]

/-- The reference's result stage is the updated centres of the arguments. -/
theorem ref_eq (x0 : (⟨S262144x256, .f32⟩ : BufTy).Contents (Elt Ideal)) (x1 : (⟨S262144, .i32⟩ : BufTy).Contents (Elt Ideal))
    (x2 : (⟨S1000x256, .f32⟩ : BufTy).Contents (Elt Ideal)) :
    val_main_v19 (F := Ideal) x0 x1 x2 = newCenters x0 x1 x2 := by
  funext j
  obtain ⟨c, d, rfl⟩ : ∃ (c : Fin 1000) (d : Fin 256), j = ix2 c d := ⟨j 0, j 1, eq_ix2 j⟩
  rw [newCenters_apply, ← v2_apply, ← v6_apply]
  have h18 : idx_main_v18 (idx_main_call1_v0 (ix2 c d)) = ix1 c := by
    funext a
    match a with
    | ⟨0, _⟩ => rfl
  have h10 : idx_main_v10 (idx_main_v11 (ix2 c d)) = ix1 c := by
    funext a
    match a with
    | ⟨0, _⟩ => rfl
  rw [val_main_v19_apply, val_main_call1_v0_apply, val_main_v18_apply, h18, val_main_v8_apply,
    val_main_v17_apply, val_main_v14_apply, val_main_v13_apply, val_main_cst_4_apply, val_main_v16_apply,
    val_main_v15_apply, val_main_cst_5_apply, val_main_v12_apply, val_main_v11_apply, val_main_v10_apply, h10,
    val_main_v9_apply, val_main_v8_apply, val_main_call0_v1_apply, val_main_call0_v0_apply, val_main_cst_3_apply,
    val_main_v7_apply, val_main_cst_2_apply]
  generalize val_main_v2 (F := Ideal) x0 x1 (ix2 c d) = s
  generalize val_main_v6 (F := Ideal) x1 (ix1 c) = k
  rfl

end Cert.ReferenceIdeal.SegValue

end
-- ==== Proof.KArr.lean ====
/-
  The two arrays the kernel writes, under names of their literal types: the two cores' partial class sums
  [2, 1000, 256] and partial class counts [2, 1000, 8] as they stand after the kernel's last step.
-/
import proofs.«404302_j36979668419191_3_alg».proof.Proof.Gen.KernelIdeal.Frame
import Idealize.ShloMosaic.PureOps.Ideal

noncomputable section

open Idealize.ShloMosaic Idealize.ShloMosaic.TcCoe Idealize.SL.Sem

namespace Cert.KernelIdeal.SegValue

open Cert.KernelIdeal Cert.KernelIdeal.Gen

variable (m : (ℓ : Loc nD τ sig) → Buf (Elt Ideal) ℓ)

/-- The partial class sums after the kernel. -/
abbrev sumsArr (c : Dev nD) : Vec Ideal S2x1000x256 .f32 := (dats m 0 c).arrAt 2 cfg0.N

/-- The partial class counts after the kernel. -/
abbrev cntsArr (c : Dev nD) : Vec Ideal S2x1000x8 .f32 := (dats m 0 c).arrAt 3 cfg0.N

end Cert.KernelIdeal.SegValue

end
-- ==== Proof.Sums.lean ====
/-
  The kernel's order of summation against the reference's: a grid step adds 2048 consecutive rows, a core runs
  64 steps, and the two cores' partial sums are added; all in all every row once.
-/
import proofs.«404302_j36979668419191_3_alg».proof.Proof.Spec
import Mathlib.Algebra.BigOperators.Fin
import Mathlib.Algebra.BigOperators.Intervals

noncomputable section

namespace Cert.SegMean

open Idealize.ShloMosaic Idealize.ShloMosaic.ValueIdx

/-- What one grid step adds to class `r`'s sum at column `d`: over the step's 2048 rows `x0` with labels `x1`. -/
def inc2 (x0 : (⟨2, ![2048, 256]⟩ : Shape).Idx → EReal) (x1 : (⟨1, ![2048]⟩ : Shape).Idx → BitVec 32)
    (r : Fin 1000) (d : Fin 256) : EReal :=
  ∑ k : Fin 2048, hot r (x1 (ix1 k)) * x0 (ix2 k d)

/-- What one grid step adds to class `r`'s count. -/
def inc3 (x1 : (⟨1, ![2048]⟩ : Shape).Idx → BitVec 32) (r : Fin 1000) : EReal :=
  ∑ k : Fin 2048, hot r (x1 (ix1 k))

/-- Row `i`'s term of class `r`'s sum at column `d`, as a function of every natural number (zero past the rows). -/
def rowTerm (feat : (⟨2, ![262144, 256]⟩ : Shape).Idx → EReal) (lbl : (⟨1, ![262144]⟩ : Shape).Idx → BitVec 32)
    (r : Fin 1000) (d : Fin 256) (i : ℕ) : EReal :=
  if h : i < 262144 then hot r (lbl (ix1 ⟨i, h⟩)) * feat (ix2 ⟨i, h⟩ d) else 0

/-- Row `i`'s term of class `r`'s count. -/
def rowOne (lbl : (⟨1, ![262144]⟩ : Shape).Idx → BitVec 32) (r : Fin 1000) (i : ℕ) : EReal :=
  if h : i < 262144 then hot r (lbl (ix1 ⟨i, h⟩)) else 0

/-- A sum over the first `n * m` numbers, taken as `n` consecutive blocks of `m`. -/
theorem sum_range_block {M : Type*} [AddCommMonoid M] (G : ℕ → M) (n m : ℕ) :
    ∑ r ∈ Finset.range (n * m), G r = ∑ t ∈ Finset.range n, ∑ k ∈ Finset.range m, G (t * m + k) := by
  induction n with
  | zero => simp
  | succ n ih =>
    rw [Nat.succ_mul, Finset.sum_range_add, ih, Finset.sum_range_succ]

/-- Two cores of 64 steps of 2048 rows each run through every row below 262144 once. -/
theorem sum_steps {M : Type*} [AddCommMonoid M] (G : ℕ → M) :
    ∑ p : Fin 2, ∑ s ∈ Finset.range 64, ∑ k : Fin 2048, G ((64 * p.val + s) * 2048 + k.val)
      = ∑ r : Fin 262144, G r.val := by
  -- each core's sum, over plain numbers, with step number `p * 64 + s`
  have h1 : ∀ p : Fin 2, ∑ s ∈ Finset.range 64, ∑ k : Fin 2048, G ((64 * p.val + s) * 2048 + k.val)
      = ∑ s ∈ Finset.range 64, ∑ k ∈ Finset.range 2048, G ((p.val * 64 + s) * 2048 + k) := by
    intro p
    refine Finset.sum_congr rfl (fun s _ => ?_)
    rw [Nat.mul_comm 64 p.val]
    exact Fin.sum_univ_eq_sum_range (fun k => G ((p.val * 64 + s) * 2048 + k)) 2048
  rw [Finset.sum_congr rfl (fun p _ => h1 p)]
  rw [Fin.sum_univ_eq_sum_range
    (fun p => ∑ s ∈ Finset.range 64, ∑ k ∈ Finset.range 2048, G ((p * 64 + s) * 2048 + k)) 2]
  -- the 2 · 64 steps in one run, then the 128 · 2048 rows in one run
  rw [← sum_range_block (fun t => ∑ k ∈ Finset.range 2048, G (t * 2048 + k)) 2 64]
  rw [← sum_range_block G (2 * 64) 2048]
  have hn : 2 * 64 * 2048 = 262144 := by norm_num
  rw [hn]
  exact (Fin.sum_univ_eq_sum_range G 262144).symm

theorem segSum_eq_steps (feat : (⟨2, ![262144, 256]⟩ : Shape).Idx → EReal) (lbl : (⟨1, ![262144]⟩ : Shape).Idx → BitVec 32)
    (r : Fin 1000) (d : Fin 256) :
    segSum feat lbl r d
      = ∑ p : Fin 2, ∑ s ∈ Finset.range 64, ∑ k : Fin 2048, rowTerm feat lbl r d ((64 * p.val + s) * 2048 + k.val) := by
  rw [sum_steps (rowTerm feat lbl r d)]
  unfold segSum
  refine Finset.sum_congr rfl (fun i _ => ?_)
  unfold rowTerm
  rw [dif_pos i.isLt]

theorem segCnt_eq_steps (lbl : (⟨1, ![262144]⟩ : Shape).Idx → BitVec 32) (r : Fin 1000) :
    segCnt lbl r
      = ∑ p : Fin 2, ∑ s ∈ Finset.range 64, ∑ k : Fin 2048, rowOne lbl r ((64 * p.val + s) * 2048 + k.val) := by
  rw [sum_steps (rowOne lbl r)]
  unfold segCnt
  refine Finset.sum_congr rfl (fun i _ => ?_)
  unfold rowOne
  rw [dif_pos i.isLt]

end Cert.SegMean

end
-- ==== Proof.KPayload.lean ====
/-
  The kernel body's arithmetic, entry by entry, over the extended reals: the compare-and-convert matrix is the
  one-hot matrix of the step's labels, a product with it into a zero accumulator sums the rows of a class, and
  the two half-steps together run through the step's 2048 rows.
-/
import proofs.«404302_j36979668419191_3_alg».proof.Proof.Gen.KernelIdeal.Skeleton
import proofs.«404302_j36979668419191_3_alg».proof.Proof.Hot
import proofs.«404302_j36979668419191_3_alg».proof.Proof.Sums
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

open Idealize.ShloMosaic Idealize.ShloMosaic.TcCoe Idealize.ShloMosaic.ValueIdx

namespace Cert.KernelIdeal.SegValue

open Cert.KernelIdeal Cert.KernelIdeal.Gen Cert.SegMean

/-! ## Sums over a step's rows in two halves -/

/-- A sum over the 2048 rows of a step is the sum over its first 1024 rows plus the sum over its last 1024. -/
theorem sum_halves (f : Fin 2048 → EReal) :
    ∑ k : Fin 2048, f k
      = ∑ k : Fin 1024, f ⟨k.val, by omega⟩ + ∑ k : Fin 1024, f ⟨1024 + k.val, by omega⟩ := by
  exact (Fin.sum_univ_add (a := 1024) (b := 1024) f)

/-! ## The slices of the label vector -/

theorem lbl_lo (x1 : IVec S2048 32) (k : Fin 1024) :
    extractStridedSlice S1024 ![0] x1 slices_S2048_o0_S1024 (ix1 k) = x1 (ix1 ⟨k.val, by omega⟩) :=
  extractStridedSlice_apply _ _ _ _ _ (fun ax => by
    match ax with
    | ⟨0, _⟩ => exact (Nat.zero_add _).symm)

theorem lbl_hi (x1 : IVec S2048 32) (k : Fin 1024) :
    extractStridedSlice S1024 ![1024] x1 slices_S2048_o1024_S1024 (ix1 k) = x1 (ix1 ⟨1024 + k.val, by omega⟩) :=
  extractStridedSlice_apply _ _ _ _ _ (fun ax => by
    match ax with
    | ⟨0, _⟩ => rfl)

/-! ## The one-hot matrices of the two half-steps -/

/-- Entry `(r, k)` of the first half-step's compare-and-convert matrix: is row `k`'s label class `r`. -/
theorem pay5_apply (x1 : Vec Ideal S2048 .i32) (r : Fin 1000) (k : Fin 1024) :
    k0_pay5 (F := Ideal) x1 (ix2 r k) = hot r (x1 (ix1 ⟨k.val, by omega⟩)) := by
  refine Eq.trans ?_ (onehot_elem r _)
  show FloatOps.sitofp (F := Ideal) .f32
    ((IntOp.cmpi .eq (iota .tc S1000x1024 32 [0] iota_S1000x1024_d0_w32 (ix2 r k))
      (broadcastTo S1000x1024 (shapeCast S1x1024 (extractStridedSlice S1024 ![0] x1 slices_S2048_o0_S1024) shapeCasts_S1024_S1x1024)
        broadcasts_S1x1024_S1000x1024 (ix2 r k))).setWidth 32) = _
  rw [iota_single_apply, broadcastTo_1b_ab_apply, shapeCast_a_1a_apply, lbl_lo]

/-- The same for the second half-step, whose rows are the step's rows 1024 to 2047. -/
theorem pay6_apply (x1 : Vec Ideal S2048 .i32) (r : Fin 1000) (k : Fin 1024) :
    k0_pay6 (F := Ideal) x1 (ix2 r k) = hot r (x1 (ix1 ⟨1024 + k.val, by omega⟩)) := by
  refine Eq.trans ?_ (onehot_elem r _)
  show FloatOps.sitofp (F := Ideal) .f32
    ((IntOp.cmpi .eq (iota .tc S1000x1024 32 [0] iota_S1000x1024_d0_w32 (ix2 r k))
      (broadcastTo S1000x1024 (shapeCast S1x1024 (extractStridedSlice S1024 ![1024] x1 slices_S2048_o1024_S1024) shapeCasts_S1024_S1x1024)
        broadcasts_S1x1024_S1000x1024 (ix2 r k))).setWidth 32) = _
  rw [iota_single_apply, broadcastTo_1b_ab_apply, shapeCast_a_1a_apply, lbl_hi]

/-! ## The two matrix products at an entry -/

theorem lhsS_0 (j : S1000x256.Idx) (k : dot_S1000x1024_S1024x256_S1000x256_1_0_0_1_n_n.contr.Idx) :
    (dot_S1000x1024_S1024x256_S1000x256_1_0_0_1_n_n.lhsIdx j k 0).val = (j 0).val := by
  unfold DotDims.lhsIdx
  rw [dif_neg (show ¬(0 : Fin S1000x1024.rank) ∈ dot_S1000x1024_S1024x256_S1000x256_1_0_0_1_n_n.lhsBatch by decide),
    dif_pos (show (0 : Fin S1000x1024.rank) ∈ dot_S1000x1024_S1024x256_S1000x256_1_0_0_1_n_n.lhsNonContracting by decide)]
  rfl
theorem lhsS_1 (j : S1000x256.Idx) (k : dot_S1000x1024_S1024x256_S1000x256_1_0_0_1_n_n.contr.Idx) :
    (dot_S1000x1024_S1024x256_S1000x256_1_0_0_1_n_n.lhsIdx j k 1).val = (k ⟨0, by decide⟩).val :=
  dot_S1000x1024_S1024x256_S1000x256_1_0_0_1_n_n.lhsIdx_val_of_single rfl j k
theorem rhsS_0 (j : S1000x256.Idx) (k : dot_S1000x1024_S1024x256_S1000x256_1_0_0_1_n_n.contr.Idx) :
    (dot_S1000x1024_S1024x256_S1000x256_1_0_0_1_n_n.rhsIdx j k 0).val = (k ⟨0, by decide⟩).val :=
  dot_S1000x1024_S1024x256_S1000x256_1_0_0_1_n_n.rhsIdx_val_of_single rfl j k
theorem rhsS_1 (j : S1000x256.Idx) (k : dot_S1000x1024_S1024x256_S1000x256_1_0_0_1_n_n.contr.Idx) :
    (dot_S1000x1024_S1024x256_S1000x256_1_0_0_1_n_n.rhsIdx j k 1).val = (j 1).val := by
  unfold DotDims.rhsIdx
  rw [dif_neg (show ¬(1 : Fin S1024x256.rank) ∈ dot_S1000x1024_S1024x256_S1000x256_1_0_0_1_n_n.rhsBatch by decide),
    dif_pos (show (1 : Fin S1024x256.rank) ∈ dot_S1000x1024_S1024x256_S1000x256_1_0_0_1_n_n.rhsNonContracting by decide)]
  rfl

/-- The product of a [1000,1024] matrix with a [1024,256] one into a zero accumulator, at entry `(r, d)`. -/
theorem mmS_apply (lhs : FVec Ideal S1000x1024 .bf16) (rhs : FVec Ideal S1024x256 .bf16) (r : Fin 1000) (d : Fin 256) :
    matmul dot_S1000x1024_S1024x256_S1000x256_1_0_0_1_n_n none lhs rhs (constant S1000x256 .f32 0x00000000#32) (ix2 r d)
      = ∑ k : Fin 1024, lhs (ix2 r k) * rhs (ix2 k d) := by
  refine (Ideal.matmul_constant_zero_apply _ none lhs rhs (ix2 r d)).trans ?_
  rw [← Equiv.sum_comp (contrEquiv1 dot_S1000x1024_S1024x256_S1000x256_1_0_0_1_n_n 1024 rfl rfl).symm]
  refine Finset.sum_congr rfl fun k _ => ?_
  have e := contrEquiv1_symm_val dot_S1000x1024_S1024x256_S1000x256_1_0_0_1_n_n 1024 rfl rfl k
  congr 1
  · congr 1; funext a; apply Fin.ext
    match a with
    | ⟨0, _⟩ => exact lhsS_0 _ _
    | ⟨1, _⟩ => exact (lhsS_1 _ _).trans e
  · congr 1; funext a; apply Fin.ext
    match a with
    | ⟨0, _⟩ => exact (rhsS_0 _ _).trans e
    | ⟨1, _⟩ => exact rhsS_1 _ _

theorem lhsC_0 (j : S1000x8.Idx) (k : dot_S1000x1024_S1024x8_S1000x8_1_0_0_1_n_n.contr.Idx) :
    (dot_S1000x1024_S1024x8_S1000x8_1_0_0_1_n_n.lhsIdx j k 0).val = (j 0).val := by
  unfold DotDims.lhsIdx
  rw [dif_neg (show ¬(0 : Fin S1000x1024.rank) ∈ dot_S1000x1024_S1024x8_S1000x8_1_0_0_1_n_n.lhsBatch by decide),
    dif_pos (show (0 : Fin S1000x1024.rank) ∈ dot_S1000x1024_S1024x8_S1000x8_1_0_0_1_n_n.lhsNonContracting by decide)]
  rfl
theorem lhsC_1 (j : S1000x8.Idx) (k : dot_S1000x1024_S1024x8_S1000x8_1_0_0_1_n_n.contr.Idx) :
    (dot_S1000x1024_S1024x8_S1000x8_1_0_0_1_n_n.lhsIdx j k 1).val = (k ⟨0, by decide⟩).val :=
  dot_S1000x1024_S1024x8_S1000x8_1_0_0_1_n_n.lhsIdx_val_of_single rfl j k
theorem rhsC_0 (j : S1000x8.Idx) (k : dot_S1000x1024_S1024x8_S1000x8_1_0_0_1_n_n.contr.Idx) :
    (dot_S1000x1024_S1024x8_S1000x8_1_0_0_1_n_n.rhsIdx j k 0).val = (k ⟨0, by decide⟩).val :=
  dot_S1000x1024_S1024x8_S1000x8_1_0_0_1_n_n.rhsIdx_val_of_single rfl j k
theorem rhsC_1 (j : S1000x8.Idx) (k : dot_S1000x1024_S1024x8_S1000x8_1_0_0_1_n_n.contr.Idx) :
    (dot_S1000x1024_S1024x8_S1000x8_1_0_0_1_n_n.rhsIdx j k 1).val = (j 1).val := by
  unfold DotDims.rhsIdx
  rw [dif_neg (show ¬(1 : Fin S1024x8.rank) ∈ dot_S1000x1024_S1024x8_S1000x8_1_0_0_1_n_n.rhsBatch by decide),
    dif_pos (show (1 : Fin S1024x8.rank) ∈ dot_S1000x1024_S1024x8_S1000x8_1_0_0_1_n_n.rhsNonContracting by decide)]
  rfl

/-- The product of a [1000,1024] matrix with a [1024,8] one into a zero accumulator, at entry `(r, e)`. -/
theorem mmC_apply (lhs : FVec Ideal S1000x1024 .bf16) (rhs : FVec Ideal S1024x8 .bf16) (r : Fin 1000) (e : Fin 8) :
    matmul dot_S1000x1024_S1024x8_S1000x8_1_0_0_1_n_n none lhs rhs (constant S1000x8 .f32 0x00000000#32) (ix2 r e)
      = ∑ k : Fin 1024, lhs (ix2 r k) * rhs (ix2 k e) := by
  refine (Ideal.matmul_constant_zero_apply _ none lhs rhs (ix2 r e)).trans ?_
  rw [← Equiv.sum_comp (contrEquiv1 dot_S1000x1024_S1024x8_S1000x8_1_0_0_1_n_n 1024 rfl rfl).symm]
  refine Finset.sum_congr rfl fun k _ => ?_
  have e' := contrEquiv1_symm_val dot_S1000x1024_S1024x8_S1000x8_1_0_0_1_n_n 1024 rfl rfl k
  congr 1
  · congr 1; funext a; apply Fin.ext
    match a with
    | ⟨0, _⟩ => exact lhsC_0 _ _
    | ⟨1, _⟩ => exact (lhsC_1 _ _).trans e'
  · congr 1; funext a; apply Fin.ext
    match a with
    | ⟨0, _⟩ => exact (rhsC_0 _ _).trans e'
    | ⟨1, _⟩ => exact rhsC_1 _ _

/-! ## The step's addends -/

/-- The bf16 pattern of one is the extended real one. -/
theorem one_bf16 : Ideal.ofBits .bf16 0x3F80#16 = 1 := IdealRules.sign_bit.ideal_onePat .bf16

/-- The step's count addend at `(r, e)`: both half-steps' one-hot rows against a column of ones, over a zero. -/
theorem pay7_apply (x1 : Vec Ideal S2048 .i32) (r : Fin 1000) (e : Fin 8) :
    k0_pay7 (F := Ideal) x1 (ix2 r e) = inc3 x1 r := by
  unfold k0_pay7
  show (Ideal.ofBits .f32 0x00000000#32
      + matmul dot_S1000x1024_S1024x8_S1000x8_1_0_0_1_n_n none (k0_pay5 (F := Ideal) x1)
          (broadcast S1024x8 (Scalar.ofBits (F := Ideal) .bf16 0x3F80#16)) (constant S1000x8 .f32 0x00000000#32) (ix2 r e))
      + matmul dot_S1000x1024_S1024x8_S1000x8_1_0_0_1_n_n none (k0_pay6 (F := Ideal) x1)
          (broadcast S1024x8 (Scalar.ofBits (F := Ideal) .bf16 0x3F80#16)) (constant S1000x8 .f32 0x00000000#32) (ix2 r e) = _
  rw [mmC_apply, mmC_apply, Ideal.ofBits_zero_f32, zero_add]
  unfold inc3
  rw [sum_halves]
  congr 1
  · refine Finset.sum_congr rfl fun k _ => ?_
    rw [pay5_apply]
    show _ * Ideal.ofBits .bf16 0x3F80#16 = _
    rw [one_bf16, mul_one]
  · refine Finset.sum_congr rfl fun k _ => ?_
    rw [pay6_apply]
    show _ * Ideal.ofBits .bf16 0x3F80#16 = _
    rw [one_bf16, mul_one]

/-- The rows of the feature block a half-step multiplies. -/
theorem feat_lo (x0 : Vec Ideal S2048x256 .f32) (k : Fin 1024) (d : Fin 256) :
    extractStridedSlice S1024x256 ![0, 0] (truncf .bf16 x0 bitsLt_bf16_f32 : FVec Ideal S2048x256 .bf16) slices_S2048x256_o0_0_S1024x256 (ix2 k d)
      = x0 (ix2 ⟨k.val, by omega⟩ d) :=
  (slice2_axis0_apply 0 _ _ k d ⟨k.val, by omega⟩ (Nat.zero_add _).symm)

theorem feat_hi (x0 : Vec Ideal S2048x256 .f32) (k : Fin 1024) (d : Fin 256) :
    extractStridedSlice S1024x256 ![1024, 0] (truncf .bf16 x0 bitsLt_bf16_f32 : FVec Ideal S2048x256 .bf16) slices_S2048x256_o1024_0_S1024x256 (ix2 k d)
      = x0 (ix2 ⟨1024 + k.val, by omega⟩ d) :=
  (slice2_axis0_apply 1024 _ _ k d ⟨1024 + k.val, by omega⟩ rfl)

/-- The step's sum addend over what the block held, at `(r, d)`. -/
theorem pay8_apply (x0 : Vec Ideal S2048x256 .f32) (x1 : Vec Ideal S2048 .i32) (v36 : Vec Ideal S1x1000x256 .f32)
    (r : Fin 1000) (d : Fin 256) :
    k0_pay8 (F := Ideal) x0 x1 v36 (ix2 r d) = v36 (ix3 (0 : Fin 1) r d) + inc2 x0 x1 r d := by
  unfold k0_pay8
  show shapeCast S1000x256 v36 shapeCasts_S1x1000x256_S1000x256 (ix2 r d)
      + ((Ideal.ofBits .f32 0x00000000#32
          + matmul dot_S1000x1024_S1024x256_S1000x256_1_0_0_1_n_n none (k0_pay5 (F := Ideal) x1)
              (extractStridedSlice S1024x256 ![0, 0] (truncf .bf16 x0 bitsLt_bf16_f32 : FVec Ideal S2048x256 .bf16) slices_S2048x256_o0_0_S1024x256)
              (constant S1000x256 .f32 0x00000000#32) (ix2 r d))
        + matmul dot_S1000x1024_S1024x256_S1000x256_1_0_0_1_n_n none (k0_pay6 (F := Ideal) x1)
            (extractStridedSlice S1024x256 ![1024, 0] (truncf .bf16 x0 bitsLt_bf16_f32 : FVec Ideal S2048x256 .bf16) slices_S2048x256_o1024_0_S1024x256)
            (constant S1000x256 .f32 0x00000000#32) (ix2 r d)) = _
  rw [shapeCast_1ab_ab_apply, mmS_apply, mmS_apply, Ideal.ofBits_zero_f32, zero_add]
  congr 1
  unfold inc2
  rw [sum_halves]
  congr 1
  · refine Finset.sum_congr rfl fun k _ => ?_
    rw [pay5_apply, feat_lo]
  · refine Finset.sum_congr rfl fun k _ => ?_
    rw [pay6_apply, feat_hi]

/-- The value the sums' store writes, at `(a, r, d)`: what the block held plus the step's addend. -/
theorem store2_apply (x0 : Vec Ideal S2048x256 .f32) (x1 : Vec Ideal S2048 .i32) (v36 : Vec Ideal S1x1000x256 .f32)
    (a : Fin 1) (r : Fin 1000) (d : Fin 256) :
    k0_pay1 (F := Ideal) (k0_pay8 x0 x1 v36) (ix3 a r d) = v36 (ix3 (0 : Fin 1) r d) + inc2 x0 x1 r d := by
  unfold k0_pay1
  show shapeCast S1x1000x256 (k0_pay8 (F := Ideal) x0 x1 v36) shapeCasts_S1000x256_S1x1000x256 (ix3 a r d) = _
  rw [shapeCast_ab_1ab_apply, pay8_apply]

/-- The value the counts' store writes, at `(a, r, e)`. -/
theorem store3_apply (x1 : Vec Ideal S2048 .i32) (v42 : Vec Ideal S1x1000x8 .f32) (a : Fin 1) (r : Fin 1000) (e : Fin 8) :
    k0_pay2 (F := Ideal) (k0_pay7 x1) v42 (ix3 a r e) = v42 (ix3 (0 : Fin 1) r e) + inc3 x1 r := by
  unfold k0_pay2
  show shapeCast S1x1000x8 (addf (shapeCast S1000x8 v42 shapeCasts_S1x1000x8_S1000x8) (k0_pay7 (F := Ideal) x1))
      shapeCasts_S1000x8_S1x1000x8 (ix3 a r e) = _
  rw [shapeCast_ab_1ab_apply]
  show shapeCast S1000x8 v42 shapeCasts_S1x1000x8_S1000x8 (ix2 r e) + k0_pay7 (F := Ideal) x1 (ix2 r e) = _
  rw [shapeCast_1ab_ab_apply, pay7_apply]

/-- The reset stores zeros. -/
theorem pay3_apply (j : S1x1000x256.Idx) : k0_pay3 (F := Ideal) j = 0 := by
  obtain ⟨a, r, d, rfl⟩ : ∃ (a : Fin 1) (r : Fin 1000) (d : Fin 256), j = ix3 a r d := ⟨j 0, j 1, j 2, eq_ix3 j⟩
  unfold k0_pay3
  show shapeCast S1x1000x256 (broadcast S1000x256 (Scalar.ofBits (F := Ideal) .f32 0x00000000#32)) shapeCasts_S1000x256_S1x1000x256 (ix3 a r d) = _
  rw [shapeCast_ab_1ab_apply]
  exact Ideal.ofBits_zero_f32

theorem pay4_apply (j : S1x1000x8.Idx) : k0_pay4 (F := Ideal) j = 0 := by
  obtain ⟨a, r, e, rfl⟩ : ∃ (a : Fin 1) (r : Fin 1000) (e : Fin 8), j = ix3 a r e := ⟨j 0, j 1, j 2, eq_ix3 j⟩
  unfold k0_pay4
  show shapeCast S1x1000x8 (broadcast S1000x8 (Scalar.ofBits (F := Ideal) .f32 0x00000000#32)) shapeCasts_S1000x8_S1x1000x8 (ix3 a r e) = _
  rw [shapeCast_ab_1ab_apply]
  exact Ideal.ofBits_zero_f32

end Cert.KernelIdeal.SegValue

end
-- ==== Proof.KPieces.lean ====
/-
  What one grid step leaves in the two accumulators, entry by entry: at the first step of a core the step's own
  addend over zero, at a later step the addend over what the step before left.
-/
import proofs.«404302_j36979668419191_3_alg».proof.Proof.Gen.KernelIdeal.Frame
import proofs.«404302_j36979668419191_3_alg».proof.Proof.Spec
import proofs.«404302_j36979668419191_3_alg».proof.Proof.Hot
import proofs.«404302_j36979668419191_3_alg».proof.Proof.Sums
import proofs.«404302_j36979668419191_3_alg».proof.Proof.KPayload
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.SegValue

open Cert.KernelIdeal Cert.KernelIdeal.Gen Cert.SegMean

section Pieces

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A later step's one store into the sums' block writes the sums' payload of the step's two input blocks and
    of what the block held. -/
theorem piece_B_2 (c : Dev nD) (i : grid0.Coords) (a2 : Memref sig .tc .vmem S2048x256 .f32) (h2 : a2.IsWhole) (a3 : Memref sig .tc .vmem S2048 .i32) (h3 : a3.IsWhole) (a4 : Memref sig .tc .vmem S1x1000x256 .f32) (h4 : a4.IsWhole) (a5 : Memref sig .tc .vmem S1x1000x8 .f32) (h5 : a5.IsWhole) (hc : ¬cond0_0 i)
    (x0 : Vec F S2048x256 .f32) (x1 : Vec F S2048 .i32) (xo2 : Vec F S1x1000x256 .f32) (xo3 : Vec F S1x1000x8 .f32) :
    out0_B_2 (F := F) c i a2 h2 a3 h3 a4 h4 a5 h5 hc x0 x1 xo2 xo3 = k0_pay1 (k0_pay8 x0 x1 xo2) := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S2048x256) hz2,
    View.ld_unit_zero (S := S2048) hz1, View.ld_unit_zero (S := S1x1000x256) hz3]

/-- and its one store into the counts' block the counts' payload. -/
theorem piece_B_3 (c : Dev nD) (i : grid0.Coords) (a2 : Memref sig .tc .vmem S2048x256 .f32) (h2 : a2.IsWhole) (a3 : Memref sig .tc .vmem S2048 .i32) (h3 : a3.IsWhole) (a4 : Memref sig .tc .vmem S1x1000x256 .f32) (h4 : a4.IsWhole) (a5 : Memref sig .tc .vmem S1x1000x8 .f32) (h5 : a5.IsWhole) (hc : ¬cond0_0 i)
    (x0 : Vec F S2048x256 .f32) (x1 : Vec F S2048 .i32) (xo2 : Vec F S1x1000x256 .f32) (xo3 : Vec F S1x1000x8 .f32) :
    out0_B_3 (F := F) c i a2 h2 a3 h3 a4 h4 a5 h5 hc x0 x1 xo2 xo3 = k0_pay2 (k0_pay7 x1) xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h3.read_unread, h5.read_unread, View.ld_unit_zero (S := S2048) hz1,
    View.ld_unit_zero (S := S1x1000x8) hz3]

/-- A core's first step stores zeros first and reads them back: the same payloads over the zero block. -/
theorem piece_A_2 (c : Dev nD) (i : grid0.Coords) (a2 : Memref sig .tc .vmem S2048x256 .f32) (h2 : a2.IsWhole) (a3 : Memref sig .tc .vmem S2048 .i32) (h3 : a3.IsWhole) (a4 : Memref sig .tc .vmem S1x1000x256 .f32) (h4 : a4.IsWhole) (a5 : Memref sig .tc .vmem S1x1000x8 .f32) (h5 : a5.IsWhole) (hc : cond0_0 i)
    (x0 : Vec F S2048x256 .f32) (x1 : Vec F S2048 .i32) :
    out0_A_2 (F := F) c i a2 h2 a3 h3 a4 h4 a5 h5 hc x0 x1 = k0_pay1 (k0_pay8 x0 x1 (k0_pay3 (F := F))) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1000x256) hz3, View.readCov_unit_zero (S := S1x1000x256) _ hz3]
  simp only [View.readAt_eq_ld, h2.read_unread, h3.read_unread, View.ld_unit_zero (S := S2048x256) hz2,
    View.ld_unit_zero (S := S2048) hz1, View.ld_unit_zero (S := S1x1000x256) hz3]

theorem piece_A_3 (c : Dev nD) (i : grid0.Coords) (a2 : Memref sig .tc .vmem S2048x256 .f32) (h2 : a2.IsWhole) (a3 : Memref sig .tc .vmem S2048 .i32) (h3 : a3.IsWhole) (a4 : Memref sig .tc .vmem S1x1000x256 .f32) (h4 : a4.IsWhole) (a5 : Memref sig .tc .vmem S1x1000x8 .f32) (h5 : a5.IsWhole) (hc : cond0_0 i)
    (x0 : Vec F S2048x256 .f32) (x1 : Vec F S2048 .i32) :
    out0_A_3 (F := F) c i a2 h2 a3 h3 a4 h4 a5 h5 hc x0 x1 = k0_pay2 (k0_pay7 x1) (k0_pay4 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1000x8) hz3, View.readCov_unit_zero (S := S1x1000x8) _ hz3]
  simp only [View.readAt_eq_ld, h3.read_unread, View.ld_unit_zero (S := S2048) hz1, View.ld_unit_zero (S := S1x1000x8) hz3]

end Pieces

/-- The first step of a core leaves in the sums' block the step's addend (over the zero it has just stored). -/
theorem out_A_2 (c : Dev nD) (i : grid0.Coords) (a2 : Memref sig .tc .vmem S2048x256 .f32) (h2 : a2.IsWhole) (a3 : Memref sig .tc .vmem S2048 .i32) (h3 : a3.IsWhole) (a4 : Memref sig .tc .vmem S1x1000x256 .f32) (h4 : a4.IsWhole) (a5 : Memref sig .tc .vmem S1x1000x8 .f32) (h5 : a5.IsWhole) (hc : cond0_0 i)
    (x0 : Vec Ideal S2048x256 .f32) (x1 : Vec Ideal S2048 .i32) (a : Fin 1) (r : Fin 1000) (d : Fin 256) :
    out0_A_2 (F := Ideal) c i a2 h2 a3 h3 a4 h4 a5 h5 hc x0 x1 (ix3 a r d) = 0 + inc2 x0 x1 r d := by
  rw [piece_A_2, store2_apply, pay3_apply]

/-- and in the counts' block the step's count, in each of the eight lanes. -/
theorem out_A_3 (c : Dev nD) (i : grid0.Coords) (a2 : Memref sig .tc .vmem S2048x256 .f32) (h2 : a2.IsWhole) (a3 : Memref sig .tc .vmem S2048 .i32) (h3 : a3.IsWhole) (a4 : Memref sig .tc .vmem S1x1000x256 .f32) (h4 : a4.IsWhole) (a5 : Memref sig .tc .vmem S1x1000x8 .f32) (h5 : a5.IsWhole) (hc : cond0_0 i)
    (x0 : Vec Ideal S2048x256 .f32) (x1 : Vec Ideal S2048 .i32) (a : Fin 1) (r : Fin 1000) (e : Fin 8) :
    out0_A_3 (F := Ideal) c i a2 h2 a3 h3 a4 h4 a5 h5 hc x0 x1 (ix3 a r e) = 0 + inc3 x1 r := by
  rw [piece_A_3, store3_apply, pay4_apply]

/-- A later step adds its addend to what the block held. -/
theorem out_B_2 (c : Dev nD) (i : grid0.Coords) (a2 : Memref sig .tc .vmem S2048x256 .f32) (h2 : a2.IsWhole) (a3 : Memref sig .tc .vmem S2048 .i32) (h3 : a3.IsWhole) (a4 : Memref sig .tc .vmem S1x1000x256 .f32) (h4 : a4.IsWhole) (a5 : Memref sig .tc .vmem S1x1000x8 .f32) (h5 : a5.IsWhole) (hc : ¬cond0_0 i)
    (x0 : Vec Ideal S2048x256 .f32) (x1 : Vec Ideal S2048 .i32) (xo2 : Vec Ideal S1x1000x256 .f32) (xo3 : Vec Ideal S1x1000x8 .f32)
    (a : Fin 1) (r : Fin 1000) (d : Fin 256) :
    out0_B_2 (F := Ideal) c i a2 h2 a3 h3 a4 h4 a5 h5 hc x0 x1 xo2 xo3 (ix3 a r d) = xo2 (ix3 a r d) + inc2 x0 x1 r d := by
  rw [piece_B_2, store2_apply]
  have ha : a = 0 := Subsingleton.elim _ _
  rw [ha]

theorem out_B_3 (c : Dev nD) (i : grid0.Coords) (a2 : Memref sig .tc .vmem S2048x256 .f32) (h2 : a2.IsWhole) (a3 : Memref sig .tc .vmem S2048 .i32) (h3 : a3.IsWhole) (a4 : Memref sig .tc .vmem S1x1000x256 .f32) (h4 : a4.IsWhole) (a5 : Memref sig .tc .vmem S1x1000x8 .f32) (h5 : a5.IsWhole) (hc : ¬cond0_0 i)
    (x0 : Vec Ideal S2048x256 .f32) (x1 : Vec Ideal S2048 .i32) (xo2 : Vec Ideal S1x1000x256 .f32) (xo3 : Vec Ideal S1x1000x8 .f32)
    (a : Fin 1) (r : Fin 1000) (e : Fin 8) :
    out0_B_3 (F := Ideal) c i a2 h2 a3 h3 a4 h4 a5 h5 hc x0 x1 xo2 xo3 (ix3 a r e) = xo3 (ix3 a r e) + inc3 x1 r := by
  rw [piece_B_3, store3_apply]
  have ha : a = 0 := Subsingleton.elim _ _
  rw [ha]

end Cert.KernelIdeal.SegValue

end
-- ==== Proof.KBlocks.lean ====
/-
  The two input blocks of a grid step under names of their literal types, read at an entry: step `t` stages
  rows `2048·t … 2048·t + 2047` of the features and of the labels.
-/
import proofs.«404302_j36979668419191_3_alg».proof.Proof.Gen.KernelIdeal.Frame
import proofs.«404302_j36979668419191_3_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.SegValue

open Cert.KernelIdeal Cert.KernelIdeal.Gen Cert.SegMean

variable (m : (ℓ : Loc nD τ sig) → Buf (Elt Ideal) ℓ)

/-- The block indices of the four windows over the 128 points, decided once over the grid: the inputs' blocks run with
    the point, each output's with the point's core. -/
theorem idx_facts : ∀ t : Fin cfg0.N,
    win0_0.index t (0 : Fin 2) = t.val ∧ win0_0.index t (1 : Fin 2) = 0 ∧ win0_1.index t (0 : Fin 1) = t.val
      ∧ win0_2.index t (0 : Fin 3) = t.val / 64 ∧ win0_2.index t (1 : Fin 3) = 0 ∧ win0_2.index t (2 : Fin 3) = 0
      ∧ win0_3.index t (0 : Fin 3) = t.val / 64 ∧ win0_3.index t (1 : Fin 3) = 0 ∧ win0_3.index t (2 : Fin 3) = 0 :=
  (by decide +kernel : ∀ t : Fin grid0.N,
    win0_0.index t (0 : Fin 2) = t.val ∧ win0_0.index t (1 : Fin 2) = 0 ∧ win0_1.index t (0 : Fin 1) = t.val
      ∧ win0_2.index t (0 : Fin 3) = t.val / 64 ∧ win0_2.index t (1 : Fin 3) = 0 ∧ win0_2.index t (2 : Fin 3) = 0
      ∧ win0_3.index t (0 : Fin 3) = t.val / 64 ∧ win0_3.index t (1 : Fin 3) = 0 ∧ win0_3.index t (2 : Fin 3) = 0)

/-- The feature rows step `t` stages. -/
abbrev xblk (c : Dev nD) (t : Fin cfg0.N) : Vec Ideal S2048x256 .f32 := iblk m c 0 t

/-- The labels step `t` stages. -/
abbrev lblk (c : Dev nD) (t : Fin cfg0.N) : Vec Ideal S2048 .i32 := iblk m c 1 t

/-- Row `k` of step `t`'s feature block is row `2048·t + k` of the features. -/
theorem xblk_apply (c : Dev nD) (t : Fin cfg0.N) (k : Fin 2048) (d : Fin 256) (h : t.val * 2048 + k.val < 262144) :
    xblk m c t (ix2 k d) = m ((c : Thread nD τ).loc main_arg0) (ix2 ⟨t.val * 2048 + k.val, h⟩ d) := by
  have hi := idx_facts t
  unfold xblk iblk
  rw [View.read_apply]
  show V m c main_arg0 _ = m ((c : Thread nD τ).loc main_arg0) _
  rw [V_main_arg0]
  congr 1
  funext a
  apply Fin.ext
  match a with
  | ⟨0, _⟩ =>
    show win0_0.index t 0 * 2048 + 1 * k.val = t.val * 2048 + k.val
    rw [hi.1]
    omega
  | ⟨1, _⟩ =>
    show win0_0.index t 1 * 256 + 1 * d.val = d.val
    rw [hi.2.1]
    omega

/-- Entry `k` of step `t`'s label block is label `2048·t + k`. -/
theorem lblk_apply (c : Dev nD) (t : Fin cfg0.N) (k : Fin 2048) (h : t.val * 2048 + k.val < 262144) :
    lblk m c t (ix1 k) = m ((c : Thread nD τ).loc main_arg1) (ix1 ⟨t.val * 2048 + k.val, h⟩) := by
  have hi := idx_facts t
  unfold lblk iblk
  rw [View.read_apply]
  show V m c main_arg1 _ = m ((c : Thread nD τ).loc main_arg1) _
  rw [V_main_arg1]
  congr 1
  funext a
  apply Fin.ext
  match a with
  | ⟨0, _⟩ =>
    show win0_1.index t 0 * 2048 + 1 * k.val = t.val * 2048 + k.val
    rw [hi.2.2.1]
    omega

end Cert.KernelIdeal.SegValue

end
-- ==== Proof.KAcc.lean ====
/-
  The accumulators across a core's steps: reset at the core's first step and added to at each later one, each
  holds, after the core's last step, the sum of the core's 64 steps' addends.
-/
import proofs.«404302_j36979668419191_3_alg».proof.Proof.Gen.KernelIdeal.Frame
import proofs.«404302_j36979668419191_3_alg».proof.Proof.Spec
import proofs.«404302_j36979668419191_3_alg».proof.Proof.KPieces
import proofs.«404302_j36979668419191_3_alg».proof.Proof.KBlocks
import proofs.«404302_j36979668419191_3_alg».proof.Proof.Sums
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.SegValue

open Cert.KernelIdeal Cert.KernelIdeal.Gen Cert.SegMean

variable (m : (ℓ : Loc nD τ sig) → Buf (Elt Ideal) ℓ)

/-- Step `n`'s addend to the sums' block at entry `y` (zero past the grid). -/
def add2 (c : Dev nD) (n : ℕ) (y : S1x1000x256.Idx) : EReal :=
  if h : n < cfg0.N then inc2 (xblk m c ⟨n, h⟩) (lblk m c ⟨n, h⟩) (y 1) (y 2) else 0

/-- Step `n`'s addend to the counts' block at entry `y`. -/
def add3 (c : Dev nD) (n : ℕ) (y : S1x1000x8.Idx) : EReal :=
  if h : n < cfg0.N then inc3 (lblk m c ⟨n, h⟩) (y 1) else 0

/-- At a step that starts a core's run the sums' block is the step's addend over zero. -/
theorem sums_reset (c : Dev nD) (n : ℕ) (h : n < cfg0.N) (hmod : n % 64 = 0) (y : S1x1000x256.Idx) :
    (outsAt0 m c n h).1 y = 0 + add2 m c n y := by
  obtain ⟨a', r, d, rfl⟩ : ∃ (a' : Fin 1) (r : Fin 1000) (d : Fin 256), y = ix3 a' r d := ⟨y 0, y 1, y 2, eq_ix3 y⟩
  rw [outsAt0_A m c ⟨n, h⟩ hmod]
  dsimp only
  refine (out_A_2 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr hmod) (xblk m c ⟨n, h⟩) (lblk m c ⟨n, h⟩) a' r d).trans ?_
  unfold add2
  rw [dif_pos h]

/-- At any other step it is the step's addend over what the step before left. -/
theorem sums_step (c : Dev nD) (n : ℕ) (h : n + 1 < cfg0.N) (hne : ¬(n + 1) % 64 = 0) (y : S1x1000x256.Idx) :
    (outsAt0 m c (n + 1) h).1 y = (outsAt0 m c n (Nat.lt_of_succ_lt h)).1 y + add2 m c (n + 1) y := by
  obtain ⟨a', r, d, rfl⟩ : ∃ (a' : Fin 1) (r : Fin 1000) (d : Fin 256), y = ix3 a' r d := ⟨y 0, y 1, y 2, eq_ix3 y⟩
  rw [outsAt0_B m c ⟨n + 1, h⟩ hne]
  dsimp only
  refine (out_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => hne ((hcond0_0 ⟨n + 1, h⟩).mp hh)) (xblk m c ⟨n + 1, h⟩) (lblk m c ⟨n + 1, h⟩)
    (outsAt0 m c n (Nat.lt_of_succ_lt h)).1 (outsAt0 m c n (Nat.lt_of_succ_lt h)).2 a' r d).trans ?_
  unfold add2
  rw [dif_pos h]

theorem cnts_reset (c : Dev nD) (n : ℕ) (h : n < cfg0.N) (hmod : n % 64 = 0) (y : S1x1000x8.Idx) :
    (outsAt0 m c n h).2 y = 0 + add3 m c n y := by
  obtain ⟨a', r, e, rfl⟩ : ∃ (a' : Fin 1) (r : Fin 1000) (e : Fin 8), y = ix3 a' r e := ⟨y 0, y 1, y 2, eq_ix3 y⟩
  rw [outsAt0_A m c ⟨n, h⟩ hmod]
  dsimp only
  refine (out_A_3 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) ((hcond0_0 ⟨n, h⟩).mpr hmod) (xblk m c ⟨n, h⟩) (lblk m c ⟨n, h⟩) a' r e).trans ?_
  unfold add3
  rw [dif_pos h]

theorem cnts_step (c : Dev nD) (n : ℕ) (h : n + 1 < cfg0.N) (hne : ¬(n + 1) % 64 = 0) (y : S1x1000x8.Idx) :
    (outsAt0 m c (n + 1) h).2 y = (outsAt0 m c n (Nat.lt_of_succ_lt h)).2 y + add3 m c (n + 1) y := by
  obtain ⟨a', r, e, rfl⟩ : ∃ (a' : Fin 1) (r : Fin 1000) (e : Fin 8), y = ix3 a' r e := ⟨y 0, y 1, y 2, eq_ix3 y⟩
  rw [outsAt0_B m c ⟨n + 1, h⟩ hne]
  dsimp only
  refine (out_B_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (fun hh => hne ((hcond0_0 ⟨n + 1, h⟩).mp hh)) (xblk m c ⟨n + 1, h⟩) (lblk m c ⟨n + 1, h⟩)
    (outsAt0 m c n (Nat.lt_of_succ_lt h)).1 (outsAt0 m c n (Nat.lt_of_succ_lt h)).2 a' r e).trans ?_
  unfold add3
  rw [dif_pos h]

/-- At a core's last step the sums' block holds the sum of the core's 64 addends. -/
theorem outs2_flush (c : Dev nD) (t : Fin cfg0.N) (ht : t.val % 64 = 63) (y : S1x1000x256.Idx) :
    (outsAt0 m c t.val t.isLt).1 y = 0 + ∑ s ∈ Finset.range 64, add2 m c (64 * (t.val / 64) + s) y := by
  have h' : 64 * (t.val / 64) + t.val % 64 < cfg0.N := by rw [Nat.div_add_mod]; exact t.isLt
  have e := Pipeline.eq_accAt_of_mod (fun n h => (outsAt0 m c n h).1) 64
    (fun n _ y => 0 + add2 m c n y) (fun n _ acc y => acc y + add2 m c n y)
    (fun n h hmod => funext fun y => sums_reset m c n h hmod y)
    (fun n h hne => funext fun y => sums_step m c n h hne y) (by decide) t.val t.isLt h'
  have e2 := Pipeline.accAt_add_apply (fun n (_ : n < cfg0.N) y => 0 + add2 m c n y)
    (fun n (_ : n < cfg0.N) acc y => acc y + add2 m c n y) (fun _ => (0 : EReal)) (fun n y => add2 m c n y)
    (64 * (t.val / 64)) 63 (fun _ _ => rfl) (fun _ _ _ _ _ _ => rfl) (t.val % 64) (by omega) h' y
  rw [congrFun e y, e2, ht]

/-- and the counts' block the sum of the core's 64 counts. -/
theorem outs3_flush (c : Dev nD) (t : Fin cfg0.N) (ht : t.val % 64 = 63) (y : S1x1000x8.Idx) :
    (outsAt0 m c t.val t.isLt).2 y = 0 + ∑ s ∈ Finset.range 64, add3 m c (64 * (t.val / 64) + s) y := by
  have h' : 64 * (t.val / 64) + t.val % 64 < cfg0.N := by rw [Nat.div_add_mod]; exact t.isLt
  have e := Pipeline.eq_accAt_of_mod (fun n h => (outsAt0 m c n h).2) 64
    (fun n _ y => 0 + add3 m c n y) (fun n _ acc y => acc y + add3 m c n y)
    (fun n h hmod => funext fun y => cnts_reset m c n h hmod y)
    (fun n h hne => funext fun y => cnts_step m c n h hne y) (by decide) t.val t.isLt h'
  have e2 := Pipeline.accAt_add_apply (fun n (_ : n < cfg0.N) y => 0 + add3 m c n y)
    (fun n (_ : n < cfg0.N) acc y => acc y + add3 m c n y) (fun _ => (0 : EReal)) (fun n y => add3 m c n y)
    (64 * (t.val / 64)) 63 (fun _ _ => rfl) (fun _ _ _ _ _ _ => rfl) (t.val % 64) (by omega) h' y
  rw [congrFun e y, e2, ht]

end Cert.KernelIdeal.SegValue

end
-- ==== Proof.KFold.lean ====
/-
  The two partial-sum arrays after the kernel: core `p`'s block of each holds the sum, over the core's 64 steps
  and each step's 2048 rows, of the rows' terms.
-/
import proofs.«404302_j36979668419191_3_alg».proof.Proof.Gen.KernelIdeal.Frame
import proofs.«404302_j36979668419191_3_alg».proof.Proof.Spec
import proofs.«404302_j36979668419191_3_alg».proof.Proof.KArr
import proofs.«404302_j36979668419191_3_alg».proof.Proof.KAcc
import proofs.«404302_j36979668419191_3_alg».proof.Proof.KBlocks
import proofs.«404302_j36979668419191_3_alg».proof.Proof.Sums
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.SegValue

open Cert.KernelIdeal Cert.KernelIdeal.Gen Cert.SegMean

variable (m : (ℓ : Loc nD τ sig) → Buf (Elt Ideal) ℓ)

/-! ## The sums -/

/-- A step's addend to the sums reads its entry only through the class and the column. -/
theorem add2_congr (c : Dev nD) (n : ℕ) (y y' : S1x1000x256.Idx) (h1 : y 1 = y' 1) (h2 : y 2 = y' 2) :
    add2 m c n y = add2 m c n y' := by
  unfold add2
  rw [h1, h2]

/-- The sums' whole array: core `p`'s block holds the sum of the core's 64 addends. -/
def G2 (c : Dev nD) : Vec Ideal S2x1000x256 .f32 :=
  fun y => 0 + ∑ s ∈ Finset.range 64, add2 m c (64 * (y 0).val + s) (ix3 (0 : Fin 1) (y 1 : Fin 1000) (y 2 : Fin 256))

/-- What a core's last step writes back is the core's block of that array. -/
theorem flushed2_eq (c : Dev nD) (t : Fin cfg0.N) (hf : (cfg0.win 2).flush t = true) :
    (dats m 0 c).flushed 2 t = ((cfg0.win 2).blk t).view.read (Elt Ideal) (G2 m c) := by
  show (cfg0.win 2).cut (grid0.coords t) ((dats m 0 c).after 2 t) = _
  rw [after0_2]
  funext j
  rw [View.read_apply]
  show (outsAt0 m c t.val t.isLt).1 j = G2 m c (((cfg0.win 2).blk t).view.emb j)
  rw [outs2_flush m c t ((flush0_2 t).mp hf) j]
  obtain ⟨-, -, -, e0, e1, e2, -⟩ := idx_facts t
  have hj0 : (j 0).val < 1 := (j 0).isLt
  have h0 : ((((cfg0.win 2).blk t).view.emb j) 0).val = t.val / 64 := by
    show win0_2.index t (0 : Fin 3) * 1 + 1 * (j 0).val = t.val / 64
    rw [e0]
    omega
  have h1 : ((((cfg0.win 2).blk t).view.emb j) 1).val = (j 1).val := by
    show win0_2.index t (1 : Fin 3) * 1000 + 1 * (j 1).val = (j 1).val
    rw [e1]
    omega
  have h2 : ((((cfg0.win 2).blk t).view.emb j) 2).val = (j 2).val := by
    show win0_2.index t (2 : Fin 3) * 256 + 1 * (j 2).val = (j 2).val
    rw [e2]
    omega
  unfold G2
  rw [h0]
  refine congrArg (fun z : EReal => 0 + z) (Finset.sum_congr rfl fun s _ => ?_)
  exact add2_congr m c (64 * (t.val / 64) + s) j
    (ix3 (0 : Fin 1) ((((cfg0.win 2).blk t).view.emb j) 1 : Fin 1000) ((((cfg0.win 2).blk t).view.emb j) 2 : Fin 256))
    (Fin.ext h1.symm) (Fin.ext h2.symm)

/-- An entry of the array is in step `t`'s block exactly when each coordinate is in the block's range on its axis. -/
theorem mem_blk2 (t : Fin cfg0.N) (i : S2x1000x256.Idx) :
    i ∈ ((cfg0.win 2).blk t).view.set ↔ ∀ a : Fin 3, win0_2.index t a * S1x1000x256.size a ≤ (i a).val
      ∧ (i a).val < win0_2.index t a * S1x1000x256.size a + S1x1000x256.size a := by
  show i ∈ ((View.whole main_v0_0).slice (win0_2.rect t)).set ↔ _
  rw [View.set_slice_whole, Rect.mem_set_unit]
  exact Iff.rfl

/-- Every entry of the sums' array is in the block its core's last step writes back. -/
theorem cover2 (i : S2x1000x256.Idx) :
    ∃ t : Fin cfg0.N, (cfg0.win 2).flush t = true ∧ i ∈ ((cfg0.win 2).blk t).view.set := by
  have hN : cfg0.N = 128 := N_0
  have hi0 : (i 0).val < 2 := (i 0).isLt
  have hi1 : (i 1).val < 1000 := (i 1).isLt
  have hi2 : (i 2).val < 256 := (i 2).isLt
  have ht : 64 * (i 0).val + 63 < cfg0.N := by omega
  refine ⟨⟨64 * (i 0).val + 63, ht⟩, (flush0_2 _).mpr (by show (64 * (i 0).val + 63) % 64 = 63; omega), ?_⟩
  rw [mem_blk2]
  obtain ⟨-, -, -, e0, e1, e2, -⟩ := idx_facts ⟨64 * (i 0).val + 63, ht⟩
  have e0' : win0_2.index ⟨64 * (i 0).val + 63, ht⟩ (0 : Fin 3) = (64 * (i 0).val + 63) / 64 := e0
  intro a
  match a with
  | ⟨0, _⟩ =>
    show win0_2.index ⟨64 * (i 0).val + 63, ht⟩ (0 : Fin 3) * 1 ≤ (i 0).val
      ∧ (i 0).val < win0_2.index ⟨64 * (i 0).val + 63, ht⟩ (0 : Fin 3) * 1 + 1
    rw [e0']
    omega
  | ⟨1, _⟩ =>
    show win0_2.index ⟨64 * (i 0).val + 63, ht⟩ (1 : Fin 3) * 1000 ≤ (i 1).val
      ∧ (i 1).val < win0_2.index ⟨64 * (i 0).val + 63, ht⟩ (1 : Fin 3) * 1000 + 1000
    rw [e1]
    omega
  | ⟨2, _⟩ =>
    show win0_2.index ⟨64 * (i 0).val + 63, ht⟩ (2 : Fin 3) * 256 ≤ (i 2).val
      ∧ (i 2).val < win0_2.index ⟨64 * (i 0).val + 63, ht⟩ (2 : Fin 3) * 256 + 256
    rw [e2]
    omega

/-- So the sums' array after the kernel is that array. -/
theorem sumsArr_eq (c : Dev nD) : sumsArr m c = G2 m c :=
  (dats m 0 c).arrAt_eq_of_cover 2 (G2 m c) (flushed2_eq m c) cover2

/-- The sums' array after the kernel, entry by entry. -/
theorem final2 (c : Dev nD) (p : Fin 2) (r : Fin 1000) (d : Fin 256) :
    sumsArr m c (ix3 p r d)
      = 0 + ∑ s ∈ Finset.range 64, ∑ k : Fin 2048,
          rowTerm (m ((c : Thread nD τ).loc main_arg0)) (m ((c : Thread nD τ).loc main_arg1)) r d ((64 * p.val + s) * 2048 + k.val) := by
  rw [sumsArr_eq]
  show 0 + ∑ s ∈ Finset.range 64, add2 m c (64 * p.val + s) (ix3 (0 : Fin 1) r d) = _
  refine congrArg (fun z : EReal => 0 + z) (Finset.sum_congr rfl fun s hs => ?_)
  have hs' : s < 64 := Finset.mem_range.mp hs
  have hp : p.val < 2 := p.isLt
  have hN : cfg0.N = 128 := N_0
  have ht : 64 * p.val + s < cfg0.N := by omega
  unfold add2
  rw [dif_pos ht]
  show inc2 (xblk m c ⟨64 * p.val + s, ht⟩) (lblk m c ⟨64 * p.val + s, ht⟩) r d = _
  unfold inc2
  refine Finset.sum_congr rfl fun k _ => ?_
  have hk : k.val < 2048 := k.isLt
  have hrow : (64 * p.val + s) * 2048 + k.val < 262144 := by omega
  unfold rowTerm
  rw [dif_pos hrow, xblk_apply m c ⟨64 * p.val + s, ht⟩ k d hrow, lblk_apply m c ⟨64 * p.val + s, ht⟩ k hrow]

/-! ## The counts -/

/-- A step's addend to the counts reads its entry only through the class. -/
theorem add3_congr (c : Dev nD) (n : ℕ) (y y' : S1x1000x8.Idx) (h1 : y 1 = y' 1) :
    add3 m c n y = add3 m c n y' := by
  unfold add3
  rw [h1]

/-- The counts' whole array: core `p`'s block holds the sum of the core's 64 counts. -/
def G3 (c : Dev nD) : Vec Ideal S2x1000x8 .f32 :=
  fun y => 0 + ∑ s ∈ Finset.range 64, add3 m c (64 * (y 0).val + s) (ix3 (0 : Fin 1) (y 1 : Fin 1000) (y 2 : Fin 8))

/-- What a core's last step writes back is the core's block of that array. -/
theorem flushed3_eq (c : Dev nD) (t : Fin cfg0.N) (hf : (cfg0.win 3).flush t = true) :
    (dats m 0 c).flushed 3 t = ((cfg0.win 3).blk t).view.read (Elt Ideal) (G3 m c) := by
  show (cfg0.win 3).cut (grid0.coords t) ((dats m 0 c).after 3 t) = _
  rw [after0_3]
  funext j
  rw [View.read_apply]
  show (outsAt0 m c t.val t.isLt).2 j = G3 m c (((cfg0.win 3).blk t).view.emb j)
  rw [outs3_flush m c t ((flush0_3 t).mp hf) j]
  obtain ⟨-, -, -, -, -, -, e0, e1, e2⟩ := idx_facts t
  have hj0 : (j 0).val < 1 := (j 0).isLt
  have h0 : ((((cfg0.win 3).blk t).view.emb j) 0).val = t.val / 64 := by
    show win0_3.index t (0 : Fin 3) * 1 + 1 * (j 0).val = t.val / 64
    rw [e0]
    omega
  have h1 : ((((cfg0.win 3).blk t).view.emb j) 1).val = (j 1).val := by
    show win0_3.index t (1 : Fin 3) * 1000 + 1 * (j 1).val = (j 1).val
    rw [e1]
    omega
  unfold G3
  rw [h0]
  refine congrArg (fun z : EReal => 0 + z) (Finset.sum_congr rfl fun s _ => ?_)
  exact add3_congr m c (64 * (t.val / 64) + s) j
    (ix3 (0 : Fin 1) ((((cfg0.win 3).blk t).view.emb j) 1 : Fin 1000) ((((cfg0.win 3).blk t).view.emb j) 2 : Fin 8))
    (Fin.ext h1.symm)

/-- An entry of the array is in step `t`'s block exactly when each coordinate is in the block's range on its axis. -/
theorem mem_blk3 (t : Fin cfg0.N) (i : S2x1000x8.Idx) :
    i ∈ ((cfg0.win 3).blk t).view.set ↔ ∀ a : Fin 3, win0_3.index t a * S1x1000x8.size a ≤ (i a).val
      ∧ (i a).val < win0_3.index t a * S1x1000x8.size a + S1x1000x8.size a := by
  show i ∈ ((View.whole main_v0_1).slice (win0_3.rect t)).set ↔ _
  rw [View.set_slice_whole, Rect.mem_set_unit]
  exact Iff.rfl

/-- Every entry of the counts' array is in the block its core's last step writes back. -/
theorem cover3 (i : S2x1000x8.Idx) :
    ∃ t : Fin cfg0.N, (cfg0.win 3).flush t = true ∧ i ∈ ((cfg0.win 3).blk t).view.set := by
  have hN : cfg0.N = 128 := N_0
  have hi0 : (i 0).val < 2 := (i 0).isLt
  have hi1 : (i 1).val < 1000 := (i 1).isLt
  have hi2 : (i 2).val < 8 := (i 2).isLt
  have ht : 64 * (i 0).val + 63 < cfg0.N := by omega
  refine ⟨⟨64 * (i 0).val + 63, ht⟩, (flush0_3 _).mpr (by show (64 * (i 0).val + 63) % 64 = 63; omega), ?_⟩
  rw [mem_blk3]
  obtain ⟨-, -, -, -, -, -, e0, e1, e2⟩ := idx_facts ⟨64 * (i 0).val + 63, ht⟩
  have e0' : win0_3.index ⟨64 * (i 0).val + 63, ht⟩ (0 : Fin 3) = (64 * (i 0).val + 63) / 64 := e0
  intro a
  match a with
  | ⟨0, _⟩ =>
    show win0_3.index ⟨64 * (i 0).val + 63, ht⟩ (0 : Fin 3) * 1 ≤ (i 0).val
      ∧ (i 0).val < win0_3.index ⟨64 * (i 0).val + 63, ht⟩ (0 : Fin 3) * 1 + 1
    rw [e0']
    omega
  | ⟨1, _⟩ =>
    show win0_3.index ⟨64 * (i 0).val + 63, ht⟩ (1 : Fin 3) * 1000 ≤ (i 1).val
      ∧ (i 1).val < win0_3.index ⟨64 * (i 0).val + 63, ht⟩ (1 : Fin 3) * 1000 + 1000
    rw [e1]
    omega
  | ⟨2, _⟩ =>
    show win0_3.index ⟨64 * (i 0).val + 63, ht⟩ (2 : Fin 3) * 8 ≤ (i 2).val
      ∧ (i 2).val < win0_3.index ⟨64 * (i 0).val + 63, ht⟩ (2 : Fin 3) * 8 + 8
    rw [e2]
    omega

/-- So the counts' array after the kernel is that array. -/
theorem cntsArr_eq (c : Dev nD) : cntsArr m c = G3 m c :=
  (dats m 0 c).arrAt_eq_of_cover 3 (G3 m c) (flushed3_eq m c) cover3

/-- The counts' array after the kernel, entry by entry (all eight lanes alike). -/
theorem final3 (c : Dev nD) (p : Fin 2) (r : Fin 1000) (e : Fin 8) :
    cntsArr m c (ix3 p r e)
      = 0 + ∑ s ∈ Finset.range 64, ∑ k : Fin 2048,
          rowOne (m ((c : Thread nD τ).loc main_arg1)) r ((64 * p.val + s) * 2048 + k.val) := by
  rw [cntsArr_eq]
  show 0 + ∑ s ∈ Finset.range 64, add3 m c (64 * p.val + s) (ix3 (0 : Fin 1) r e) = _
  refine congrArg (fun z : EReal => 0 + z) (Finset.sum_congr rfl fun s hs => ?_)
  have hs' : s < 64 := Finset.mem_range.mp hs
  have hp : p.val < 2 := p.isLt
  have hN : cfg0.N = 128 := N_0
  have ht : 64 * p.val + s < cfg0.N := by omega
  unfold add3
  rw [dif_pos ht]
  show inc3 (lblk m c ⟨64 * p.val + s, ht⟩) r = _
  unfold inc3
  refine Finset.sum_congr rfl fun k _ => ?_
  have hk : k.val < 2048 := k.isLt
  have hrow : (64 * p.val + s) * 2048 + k.val < 262144 := by omega
  unfold rowOne
  rw [dif_pos hrow, lblk_apply m c ⟨64 * p.val + s, ht⟩ k hrow]

end Cert.KernelIdeal.SegValue

end
-- ==== Proof.KTail.lean ====
/-
  The host operations after the kernel, read at an entry: the two cores' partial sums and counts are added, and
  the rest is `ema` of the class's sum, its count (lane 0) and the old centre entry.
-/
import proofs.«404302_j36979668419191_3_alg».proof.Proof.Gen.KernelIdeal.Frame
import proofs.«404302_j36979668419191_3_alg».proof.Proof.Spec
import proofs.«404302_j36979668419191_3_alg».proof.Proof.KArr
import Idealize.ShloMosaic.Lib.Pipeline.Value
import Idealize.ShloMosaic.Lib.ValueIdx
import Idealize.ShloMosaic.PureOps.Ideal.Laws
import Idealize.ShloMosaic.Lib.Tactic
import Idealize.ShloMosaic.Lib.ValueLayout
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.SegValue

open Cert.KernelIdeal Cert.KernelIdeal.Gen Cert.SegMean

variable (m : (ℓ : Loc nD τ sig) → Buf (Elt Ideal) ℓ)

/-! ## The host operations as one term over the kernel's two arrays and the old centres -/

/-- The class counts as a column: the two cores' partial counts added, lane 0 cut out. -/
def cntCol (A3 : FVec Ideal S2x1000x8 .f32) : FVec Ideal S1000x1 .f32 :=
  extractStridedSlice S1000x1 ![0, 0]
    (Host.reduceAdd (F := Ideal) A3 (constant (F := Ideal) S_ .f32 0x00000000#32) reducesTo_S2x1000x8_S1000x8_d0 h_S_)
    slices_S1000x8_S1000x1_0_0

/-- Where a class has rows: its count above zero. -/
def posCol (A3 : FVec Ideal S2x1000x8 .f32) : IVec S1000x1 1 :=
  cmpf (F := Ideal) .ogt (cntCol A3) (broadcastInDim S1000x1 ![] bcast_S_S1000x1 (constant (F := Ideal) S_ .f32 0x00000000#32))

/-- The divisor: the count where it is positive, one elsewhere. -/
def denCol (A3 : FVec Ideal S2x1000x8 .f32) : FVec Ideal S1000x1 .f32 :=
  select (posCol A3) (cntCol A3)
    (broadcastInDim S1000x1 ![] bcast_S_S1000x1 (id (constant (F := Ideal) S_ .f32 0x3F800000#32)))

/-- The result buffer as the host operations compose it from the partial sums `A2`, the partial counts `A3` and the
    old centres `cen`. -/
def tailTerm (A2 : FVec Ideal S2x1000x256 .f32) (A3 : FVec Ideal S2x1000x8 .f32) (cen : FVec Ideal S1000x256 .f32) :
    FVec Ideal S1000x256 .f32 :=
  select (broadcastInDim S1000x256 ![0, 1] bcast_S1000x1_S1000x256_0_1 (posCol A3))
    (addf (mulf (broadcastInDim S1000x256 ![] bcast_S_S1000x256 (constant (F := Ideal) S_ .f32 0x3F000000#32)) cen)
      (mulf (broadcastInDim S1000x256 ![] bcast_S_S1000x256 (constant (F := Ideal) S_ .f32 0x3F000000#32))
        (Host.divf
          (Host.reduceAdd (F := Ideal) A2 (constant (F := Ideal) S_ .f32 0x00000000#32) reducesTo_S2x1000x256_S1000x256_d0 h_S_)
          (broadcastInDim S1000x256 ![0, 1] bcast_S1000x1_S1000x256_0_1 (denCol A3)))))
    cen

set_option maxHeartbeats 2000000 in
/-- The host operations after the kernel leave `tailTerm` of what they read in the result buffer, whatever the
    buffers hold before them. -/
theorem after_tail (Vw : Valuation τ sig (Elt Ideal)) :
    StableHlo.after (List.flatten [hostOps1, hostOps1_1, hostOps1_2, hostOps1_3]) Vw (Proc.devRef .tc main_v14)
      = tailTerm (Vw (Proc.devRef .tc main_v0_0)) (Vw (Proc.devRef .tc main_v0_1)) (Vw (Proc.devRef .tc main_arg2)) := by
  simp only [hostOps1, hostOps1_1, hostOps1_2, hostOps1_3, List.flatten_cons, List.flatten_nil, List.append_nil, List.cons_append, List.nil_append]
  after_results
  simp only [StableHlo.TRef.ofBuf, StableHlo.TRef.toBuf, cast_eq]
  rfl

/-! ## The term read at an entry -/

/-- A column broadcast along a new second axis reads the column. -/
theorem bcast_col_apply {α : Type} (y : S1000x1.Idx → α) (r : Fin 1000) (d : Fin 256) :
    broadcastInDim S1000x256 ![0, 1] bcast_S1000x1_S1000x256_0_1 y (ix2 r d) = y (ix2 r (0 : Fin 1)) :=
  broadcastInDim_apply _ bcast_S1000x1_S1000x256_0_1 y (ix2 r d) (ix2 r (0 : Fin 1)) (fun a => match a with
    | ⟨0, _⟩ => by show r.val = if (1000 : Nat) = 1 then 0 else r.val; rw [if_neg (by decide)]
    | ⟨1, _⟩ => by show 0 = if (1 : Nat) = 1 then 0 else d.val; rw [if_pos rfl])

/-- A scalar broadcast reads the scalar. -/
theorem bcast_scalar_apply {α : Type} {T : Shape} (h : S_.BroadcastsInDim T ![]) (y : S_.Idx → α) (j : T.Idx) :
    broadcastInDim T ![] h y j = y (fun a => a.elim0) :=
  broadcastInDim_apply _ h y j (fun a => a.elim0) (fun a => a.elim0)

/-- The two cores' partial sums added, at an entry. -/
theorem sums_apply (A2 : FVec Ideal S2x1000x256 .f32) (r : Fin 1000) (d : Fin 256) :
    Host.reduceAdd (F := Ideal) A2 (constant (F := Ideal) S_ .f32 0x00000000#32) reducesTo_S2x1000x256_S1000x256_d0 h_S_ (ix2 r d)
      = Ideal.ofBits .f32 0x00000000#32 + ∑ p : Fin 2, A2 (ix3 p r d) := by
  have h : S2x1000x256.Reduces [0] S1000x256 := by decide
  show Ideal.hostReduceAdd reducesTo_S2x1000x256_S1000x256_d0 A2 (Ideal.ofBits .f32 0x00000000#32) (ix2 r d) = _
  rw [Ideal.hostReduceAdd_single _ h]
  refine congrArg (fun z => Ideal.ofBits .f32 0x00000000#32 + z) (Finset.sum_congr rfl fun p _ => congrArg A2 ?_)
  refine funext fun a => Fin.ext ?_
  match a with
  | ⟨0, _⟩ => rfl
  | ⟨1, _⟩ => rfl
  | ⟨2, _⟩ => rfl

/-- The class count column at a class: the two cores' partial counts, lane 0, added. -/
theorem cntCol_apply (A3 : FVec Ideal S2x1000x8 .f32) (r : Fin 1000) :
    cntCol A3 (ix2 r (0 : Fin 1)) = Ideal.ofBits .f32 0x00000000#32 + ∑ p : Fin 2, A3 (ix3 p r (0 : Fin 8)) := by
  have h : S2x1000x8.Reduces [0] S1000x8 := by decide
  unfold cntCol
  refine (slice2_axis1_apply 0 _ slices_S1000x8_S1000x1_0_0 r (0 : Fin 1) (0 : Fin 8) rfl).trans ?_
  show Ideal.hostReduceAdd reducesTo_S2x1000x8_S1000x8_d0 A3 (Ideal.ofBits .f32 0x00000000#32) (ix2 r (0 : Fin 8)) = _
  rw [Ideal.hostReduceAdd_single _ h]
  refine congrArg (fun z => Ideal.ofBits .f32 0x00000000#32 + z) (Finset.sum_congr rfl fun p _ => congrArg A3 ?_)
  refine funext fun a => Fin.ext ?_
  match a with
  | ⟨0, _⟩ => rfl
  | ⟨1, _⟩ => rfl
  | ⟨2, _⟩ => rfl

theorem posCol_apply (A3 : FVec Ideal S2x1000x8 .f32) (r : Fin 1000) :
    posCol A3 (ix2 r (0 : Fin 1))
      = FloatOps.cmpf (F := Ideal) (φ := .f32) .ogt (cntCol A3 (ix2 r (0 : Fin 1))) (Ideal.ofBits .f32 0x00000000#32) := by
  unfold posCol
  rw [cmpf_apply, bcast_scalar_apply]
  rfl

theorem denCol_apply (A3 : FVec Ideal S2x1000x8 .f32) (r : Fin 1000) :
    denCol A3 (ix2 r (0 : Fin 1))
      = Scalar.select (posCol A3 (ix2 r (0 : Fin 1))) (cntCol A3 (ix2 r (0 : Fin 1))) (Ideal.ofBits .f32 0x3F800000#32) := by
  unfold denCol
  rw [select_apply, bcast_scalar_apply]
  rfl

/-- The composed term at an entry is `ema` of the class's sum, its count and the old entry. -/
theorem tailTerm_apply (A2 : FVec Ideal S2x1000x256 .f32) (A3 : FVec Ideal S2x1000x8 .f32) (cen : FVec Ideal S1000x256 .f32)
    (r : Fin 1000) (d : Fin 256) :
    tailTerm A2 A3 cen (ix2 r d)
      = ema (Ideal.ofBits .f32 0x00000000#32 + ∑ p : Fin 2, A2 (ix3 p r d))
          (Ideal.ofBits .f32 0x00000000#32 + ∑ p : Fin 2, A3 (ix3 p r (0 : Fin 8))) (cen (ix2 r d)) := by
  unfold tailTerm
  rw [select_apply, bcast_col_apply, addf_apply, mulf_apply, mulf_apply, bcast_scalar_apply, hostDivf_apply, sums_apply,
    bcast_col_apply, denCol_apply, posCol_apply, cntCol_apply]
  rfl

/-- The result buffer after the host operations that follow the kernel, at entry `(r, d)`. -/
theorem tail_apply (c : Dev nD) (r : Fin 1000) (d : Fin 256) :
    Pipeline.afterTail₀ cfgs (dats m) 0 (V0 m) [hostOps1, hostOps1_1, hostOps1_2, hostOps1_3] c main_v14 (ix2 r d)
      = ema (Ideal.ofBits .f32 0x00000000#32 + ∑ p : Fin 2, sumsArr m c (ix3 p r d))
          (Ideal.ofBits .f32 0x00000000#32 + ∑ p : Fin 2, cntsArr m c (ix3 p r (0 : Fin 8)))
          (m ((c : Thread nD τ).loc main_arg2) (ix2 r d)) := by
  unfold Pipeline.afterTail₀
  rw [after_tail]
  rw [Pipeline.withArrays_arr spec0 launch0.win.arr_inj c _ _ 2, Pipeline.withArrays_arr spec0 launch0.win.arr_inj c _ _ 3,
    Pipeline.withArrays_of_ne _ c (V0 m c) _ main_arg2 (by exact (by decide : ∀ w, Pipeline.arrRef spec0 w ≠ main_arg2))]
  exact tailTerm_apply (sumsArr m c) (cntsArr m c) _ r d

end Cert.KernelIdeal.SegValue

end
-- ==== Proof.KValue.lean ====
/-
  The kernel's program, run: its result array ends at the updated centres of its arguments.
-/
import proofs.«404302_j36979668419191_3_alg».proof.Proof.Gen.KernelIdeal.Frame
import proofs.«404302_j36979668419191_3_alg».proof.Proof.Spec
import proofs.«404302_j36979668419191_3_alg».proof.Proof.KFold
import proofs.«404302_j36979668419191_3_alg».proof.Proof.KTail
import proofs.«404302_j36979668419191_3_alg».proof.Proof.Sums
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.SegValue

open Cert.KernelIdeal Cert.KernelIdeal.Gen Cert.SegMean

variable (m : (ℓ : Loc nD τ sig) → Buf (Elt Ideal) ℓ) (ρ : Dev nD → PrngReg)

/-- The result buffer after the program is the updated centres: the host operations' `ema` of the two cores'
    partial sums and counts added, which are every row's term once. -/
theorem result_eq (c : Dev nD) :
    Pipeline.afterTail₀ cfgs (dats m) 0 (V0 m) [hostOps1, hostOps1_1, hostOps1_2, hostOps1_3] c main_v14
      = newCenters (m ((c : Thread nD τ).loc main_arg0)) (m ((c : Thread nD τ).loc main_arg1)) (m ((c : Thread nD τ).loc main_arg2)) := by
  funext j
  obtain ⟨r, d, rfl⟩ : ∃ (r : Fin 1000) (d : Fin 256), j = ix2 r d := ⟨j 0, j 1, eq_ix2 j⟩
  have hs : Ideal.ofBits .f32 0x00000000#32 + ∑ p : Fin 2, sumsArr m c (ix3 p r d)
      = segSum (m ((c : Thread nD τ).loc main_arg0)) (m ((c : Thread nD τ).loc main_arg1)) r d := by
    rw [Ideal.ofBits_zero_f32, zero_add, segSum_eq_steps]
    refine Finset.sum_congr rfl fun p _ => ?_
    rw [final2, zero_add]
  have hk : Ideal.ofBits .f32 0x00000000#32 + ∑ p : Fin 2, cntsArr m c (ix3 p r (0 : Fin 8))
      = segCnt (m ((c : Thread nD τ).loc main_arg1)) r := by
    rw [Ideal.ofBits_zero_f32, zero_add, segCnt_eq_steps]
    refine Finset.sum_congr rfl fun p _ => ?_
    rw [final3, zero_add]
  rw [tail_apply m c r d, newCenters_apply, hs, hk]

/-- Every weakly fair execution of the kernel's program ends with the result at the updated centres and the
    arguments unchanged. -/
theorem run : θ_run defs (onTc (τ := τ) (main (F := Ideal))) ⟨m, fun _ => 0, ρ⟩ fun r => ∀ c : Dev nD,
      r.2.mem ((c.tc : Thread nD τ).loc main_v14)
        = newCenters (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.SegValue

end
-- ==== Proof.lean ====
/-
  A segment mean against its one-hot formulation.

  The reference adds every feature row into the row of its class with an accumulating scatter (a label outside
  the classes drops its row), counts the rows of each class the same way, and updates each centre entry from its
  class's sum and count (`Cert.SegMean.ema`). The kernel never scatters: a grid step takes 2048 rows, builds for
  each class the 0/1 vector "this row's label is the class" and multiplies it into the rows (a matrix product)
  and into a column of ones, and adds the result into an accumulator block that a core keeps across its 64
  steps; the two cores' blocks are added on the host, and the same update follows. Over the extended reals a
  0/1 factor keeps or drops its row exactly, sums may be taken in any order, and the 128 steps run through every
  row once: both programs end at `Cert.SegMean.newCenters` of the arguments.
-/
import proofs.«404302_j36979668419191_3_alg».proof.Defs
import proofs.«404302_j36979668419191_3_alg».proof.Proof.Gen.Kernel
import proofs.«404302_j36979668419191_3_alg».proof.Proof.Gen.Kernel.Frame
import proofs.«404302_j36979668419191_3_alg».proof.Proof.Gen.KernelIdeal
import proofs.«404302_j36979668419191_3_alg».proof.Proof.Gen.KernelIdeal.Frame
import proofs.«404302_j36979668419191_3_alg».proof.Proof.Gen.ReferenceIdeal
import proofs.«404302_j36979668419191_3_alg».proof.Proof.Gen.Pre_finite_inputs
import proofs.«404302_j36979668419191_3_alg».proof.Proof.RefRun
import proofs.«404302_j36979668419191_3_alg».proof.Proof.RefRead
import proofs.«404302_j36979668419191_3_alg».proof.Proof.RefValue
import proofs.«404302_j36979668419191_3_alg».proof.Proof.KValue
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- Both programs end at the updated centres of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.SegMean.newCenters (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.SegValue.run m ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v19_eq, Cert.ReferenceIdeal.SegValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
